-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x128 : Shape := ⟨3, ![4, 10000, 128]⟩
abbrev S160000x2 : Shape := ⟨2, ![160000, 2]⟩
abbrev S128x128 : Shape := ⟨2, ![128, 128]⟩
abbrev S128 : Shape := ⟨1, ![128]⟩
abbrev S256x1 : Shape := ⟨2, ![256, 1]⟩
abbrev S1 : Shape := ⟨1, ![1]⟩
abbrev S256x128 : Shape := ⟨2, ![256, 128]⟩
abbrev S_ : Shape := ⟨0, ![]⟩

class Facts : Prop where
  bcast_S_S4x10000x128 : S_.BroadcastsInDim S4x10000x128 (![] : Fin 0 → Fin S4x10000x128.rank)
  reducesTo_S4x10000x128_S_d0_1_2 : S4x10000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S1 .f32) (main_arg6 : FVec F S256x128 .f32) (main_arg7 : FVec F S128 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x10000x128 .f32) (main_arg1 : IVec S160000x2 32) (main_arg2 : FVec F S128x128 .f32) (main_arg3 : FVec F S128 .f32) (main_arg4 : FVec F S256x1 .f32) (main_arg5 : FVec F S1 .f32) (main_arg6 : FVec F S256x128 .f32) (main_arg7 : FVec F S128 .f32) : IVec S_ 1 :=
  let main_v0 : FVec F S4x10000x128 .f32 := Host.absf main_arg0
  let main_cst : FVec F S_ .f32 := constant S_ .f32 0x7F800000#32
  let main_v1 : FVec F S4x10000x128 .f32 := broadcastInDim S4x10000x128 ![] bcast_S_S4x10000x128 main_cst
  let main_v2 : IVec S4x10000x128 1 := cmpf .olt main_v0 main_v1
  let main_c : IVec S_ 1 := constantI S_ 1 1#1
  let main_v3 : IVec S_ 1 := (fun x v => Host.reduce IntOp.andi x v reducesTo_S4x10000x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_arg6 main_arg7 main_v13 main_v16
-- ==== Kernel.lean ====
abbrev S4x10000x128 : Shape := ⟨3, ![4, 10000, 128]⟩
abbrev S160000x2 : Shape := ⟨2, ![160000, 2]⟩
abbrev S128x128 : Shape := ⟨2, ![128, 128]⟩
abbrev S128 : Shape := ⟨1, ![128]⟩
abbrev S256x1 : Shape := ⟨2, ![256, 1]⟩
abbrev S1 : Shape := ⟨1, ![1]⟩
abbrev S256x128 : Shape := ⟨2, ![256, 128]⟩
abbrev S40000x128 : Shape := ⟨2, ![40000, 128]⟩
abbrev S1x128 : Shape := ⟨2, ![1, 128]⟩
abbrev S128x1 : Shape := ⟨2, ![128, 1]⟩
abbrev S128x2 : Shape := ⟨2, ![128, 2]⟩
abbrev S_ : Shape := ⟨0, ![]⟩
abbrev S128x126 : Shape := ⟨2, ![128, 126]⟩
abbrev S40000x2 : Shape := ⟨2, ![40000, 2]⟩
abbrev S4000x128 : Shape := ⟨2, ![4000, 128]⟩
abbrev S4000x2 : Shape := ⟨2, ![4000, 2]⟩
abbrev S4x10000x2 : Shape := ⟨3, ![4, 10000, 2]⟩
abbrev S4x10000x1 : Shape := ⟨3, ![4, 10000, 1]⟩
abbrev S160000x1 : Shape := ⟨2, ![160000, 1]⟩
abbrev S160000 : Shape := ⟨1, ![160000]⟩
abbrev S4x160000x1 : Shape := ⟨3, ![4, 160000, 1]⟩
abbrev S1x1x1 : Shape := ⟨3, ![1, 1, 1]⟩
abbrev S640000x1 : Shape := ⟨2, ![640000, 1]⟩
abbrev S1x1 : Shape := ⟨2, ![1, 1]⟩
abbrev S4x160000x128 : Shape := ⟨3, ![4, 160000, 128]⟩
abbrev S10000x128 : Shape := ⟨2, ![10000, 128]⟩

abbrev nBuf : Space → Nat
  | .hbm => 91
  | .vmem => 18
  | .smem => 0
  | _ => 0

abbrev bufTy : (tb : Table) → Fin (tcTables nBuf tb) → BufTy
  | .hbm, ⟨0, _⟩ => ⟨S4x10000x128, .f32⟩
  | .hbm, ⟨1, _⟩ => ⟨S160000x2, .i32⟩
  | .hbm, ⟨2, _⟩ => ⟨S128x128, .f32⟩
  | .hbm, ⟨3, _⟩ => ⟨S128, .f32⟩
  | .hbm, ⟨4, _⟩ => ⟨S256x1, .f32⟩
  | .hbm, ⟨5, _⟩ => ⟨S1, .f32⟩
  | .hbm, ⟨6, _⟩ => ⟨S256x128, .f32⟩
  | .hbm, ⟨7, _⟩ => ⟨S128, .f32⟩
  | .hbm, ⟨8, _⟩ => ⟨S40000x128, .f32⟩
  | .hbm, ⟨9, _⟩ => ⟨S1x128, .f32⟩
  | .hbm, ⟨10, _⟩ => ⟨S128x1, .f32⟩
  | .hbm, ⟨11, _⟩ => ⟨S128x1, .f32⟩
  | .hbm, ⟨12, _⟩ => ⟨S128x2, .f32⟩
  | .hbm, ⟨13, _⟩ => ⟨S_, .f32⟩
  | .hbm, ⟨14, _⟩ => ⟨S128x126, .f32⟩
  | .hbm, ⟨15, _⟩ => ⟨S128x128, .f32⟩
  | .hbm, ⟨16, _⟩ => ⟨S40000x128, .bf16⟩
  | .hbm, ⟨17, _⟩ => ⟨S40000x2, .f32⟩
  | .hbm, ⟨18, _⟩ => ⟨S4x10000x128, .bf16⟩
  | .hbm, ⟨19, _⟩ => ⟨S4x10000x2, .f32⟩
  | .hbm, ⟨20, _⟩ => ⟨S4x10000x1, .f32⟩
  | .hbm, ⟨21, _⟩ => ⟨S4x10000x1, .f32⟩
  | .hbm, ⟨22, _⟩ => ⟨S160000x1, .i32⟩
  | .hbm, ⟨23, _⟩ => ⟨S160000, .i32⟩
  | .hbm, ⟨24, _⟩ => ⟨S160000x1, .i32⟩
  | .hbm, ⟨25, _⟩ => ⟨S160000, .i32⟩
  | .hbm, ⟨26, _⟩ => ⟨S_, .i32⟩
  | .hbm, ⟨27, _⟩ => ⟨S160000, .i32⟩
  | .hbm, ⟨28, _⟩ => ⟨S160000, .i1⟩
  | .hbm, ⟨29, _⟩ => ⟨S_, .i32⟩
  | .hbm, ⟨30, _⟩ => ⟨S160000, .i32⟩
  | .hbm, ⟨31, _⟩ => ⟨S160000, .i32⟩
  | .hbm, ⟨32, _⟩ => ⟨S160000, .i32⟩
  | .hbm, ⟨33, _⟩ => ⟨S160000x1, .i32⟩
  | .hbm, ⟨34, _⟩ => ⟨S4x160000x1, .f32⟩
  | .hbm, ⟨35, _⟩ => ⟨S_, .i32⟩
  | .hbm, ⟨36, _⟩ => ⟨S160000, .i32⟩
  | .hbm, ⟨37, _⟩ => ⟨S160000, .i1⟩
  | .hbm, ⟨38, _⟩ => ⟨S_, .i32⟩
  | .hbm, ⟨39, _⟩ => ⟨S160000, .i32⟩
  | .hbm, ⟨40, _⟩ => ⟨S160000, .i32⟩
  | .hbm, ⟨41, _⟩ => ⟨S160000, .i32⟩
  | .hbm, ⟨42, _⟩ => ⟨S160000x1, .i32⟩
  | .hbm, ⟨43, _⟩ => ⟨S4x160000x1, .f32⟩
  | .hbm, ⟨44, _⟩ => ⟨S4x160000x1, .f32⟩
  | .hbm, ⟨45, _⟩ => ⟨S1x1x1, .f32⟩
  | .hbm, ⟨46, _⟩ => ⟨S4x160000x1, .f32⟩
  | .hbm, ⟨47, _⟩ => ⟨S4x160000x1, .f32⟩
  | .hbm, ⟨48, _⟩ => ⟨S4x160000x1, .f32⟩
  | .hbm, ⟨49, _⟩ => ⟨S640000x1, .f32⟩
  | .hbm, ⟨50, _⟩ => ⟨S_, .f32⟩
  | .hbm, ⟨51, _⟩ => ⟨S1, .f32⟩
  | .hbm, ⟨52, _⟩ => ⟨S_, .f32⟩
  | .hbm, ⟨53, _⟩ => ⟨S1, .f32⟩
  | .hbm, ⟨54, _⟩ => ⟨S1, .f32⟩
  | .hbm, ⟨55, _⟩ => ⟨S1x1, .f32⟩
  | .hbm, ⟨56, _⟩ => ⟨S640000x1, .f32⟩
  | .hbm, ⟨57, _⟩ => ⟨S640000x1, .f32⟩
  | .hbm, ⟨58, _⟩ => ⟨S640000x1, .f32⟩
  | .hbm, ⟨59, _⟩ => ⟨S_, .f32⟩
  | .hbm, ⟨60, _⟩ => ⟨S1, .f32⟩
  | .hbm, ⟨61, _⟩ => ⟨S1x1, .f32⟩
  | .hbm, ⟨62, _⟩ => ⟨S640000x1, .f32⟩
  | .hbm, ⟨63, _⟩ => ⟨S640000x1, .f32⟩
  | .hbm, ⟨64, _⟩ => ⟨S4x160000x1, .f32⟩
  | .hbm, ⟨65, _⟩ => ⟨S_, .i32⟩
  | .hbm, ⟨66, _⟩ => ⟨S160000, .i32⟩
  | .hbm, ⟨67, _⟩ => ⟨S160000, .i1⟩
  | .hbm, ⟨68, _⟩ => ⟨S_, .i32⟩
  | .hbm, ⟨69, _⟩ => ⟨S160000, .i32⟩
  | .hbm, ⟨70, _⟩ => ⟨S160000, .i32⟩
  | .hbm, ⟨71, _⟩ => ⟨S160000, .i32⟩
  | .hbm, ⟨72, _⟩ => ⟨S160000x1, .i32⟩
  | .hbm, ⟨73, _⟩ => ⟨S4x160000x128, .bf16⟩
  | .hbm, ⟨74, _⟩ => ⟨S4x160000x128, .f32⟩
  | .hbm, ⟨75, _⟩ => ⟨S4x160000x128, .f32⟩
  | .hbm, ⟨76, _⟩ => ⟨S4x160000x128, .f32⟩
  | .hbm, ⟨77, _⟩ => ⟨S4x160000x128, .bf16⟩
  | .hbm, ⟨78, _⟩ => ⟨S4x160000x128, .f32⟩
  | .hbm, ⟨79, _⟩ => ⟨S_, .f32⟩
  | .hbm, ⟨80, _⟩ => ⟨S10000x128, .f32⟩
  | .hbm, ⟨81, _⟩ => ⟨S160000x1, .i32⟩
  | .hbm, ⟨82, _⟩ => ⟨S4x10000x128, .f32⟩
  | .hbm, ⟨83, _⟩ => ⟨S4x10000x128, .f32⟩
  | .hbm, ⟨84, _⟩ => ⟨S40000x128, .bf16⟩
  | .hbm, ⟨85, _⟩ => ⟨S40000x128, .f32⟩
  | .hbm, ⟨86, _⟩ => ⟨S128x128, .f32⟩
  | .hbm, ⟨87, _⟩ => ⟨S128x128, .f32⟩
  | .hbm, ⟨88, _⟩ => ⟨S1x128, .f32⟩
  | .hbm, ⟨89, _⟩ => ⟨S40000x128, .f32⟩
  | .hbm, ⟨90, _⟩ => ⟨S4x10000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S4000x128, .bf16⟩
  | .local _ .vmem, ⟨6, _⟩ => ⟨S4000x128, .bf16⟩
  | .local _ .vmem, ⟨7, _⟩ => ⟨S4000x2, .f32⟩
  | .local _ .vmem, ⟨8, _⟩ => ⟨S4000x2, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S4x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_6 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4x10000x128_S40000x128 : S4x10000x128.ShapeCasts S40000x128
  shapeCasts_S128_S1x128 : S128.ShapeCasts S1x128
  slices_S256x1_S128x1_0_0 : S256x1.Slices ![0, 0] S128x1
  slices_S256x1_S128x1_128_0 : S256x1.Slices ![128, 0] S128x1
  concatenates_S128x1_S128x1_S128x2_d1 : Shape.Concatenates [S128x1, S128x1] S128x2 1
  bcast_S_S128x126 : S_.BroadcastsInDim S128x126 (![] : Fin 0 → Fin S128x126.rank)
  concatenates_S128x2_S128x126_S128x128_d1 : Shape.Concatenates [S128x2, S128x126] S128x128 1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  shapeCasts_S128x128_S128x128 : S128x128.ShapeCasts S128x128
  slices_S4000x128_o0_0_S4000x2 : S4000x128.Slices ![0, 0] S4000x2
  inb_S4000x2_S4000x2_0_0 : ∀ a, (![0, 0] : Fin 2 → Nat) a + S4000x2.size a ≤ S4000x2.size a
  h_S4000x2 : 0 < S4000x2.numel
  shapeCasts_S40000x128_S4x10000x128 : S40000x128.ShapeCasts S4x10000x128
  shapeCasts_S40000x2_S4x10000x2 : S40000x2.ShapeCasts S4x10000x2
  slices_S4x10000x2_S4x10000x1_0_0_0 : S4x10000x2.Slices ![0, 0, 0] S4x10000x1
  slices_S4x10000x2_S4x10000x1_0_0_1 : S4x10000x2.Slices ![0, 0, 1] S4x10000x1
  slices_S160000x2_S160000x1_0_0 : S160000x2.Slices ![0, 0] S160000x1
  shapeCasts_S160000x1_S160000 : S160000x1.ShapeCasts S160000
  slices_S160000x2_S160000x1_0_1 : S160000x2.Slices ![0, 1] S160000x1
  bcast_S_S160000 : S_.BroadcastsInDim S160000 (![] : Fin 0 → Fin S160000.rank)
  bcast_S160000_S160000x1_0 : S160000.BroadcastsInDim S160000x1 (![0] : Fin 1 → Fin S160000x1.rank)
  bcast_S1_S1x1x1_2 : S1.BroadcastsInDim S1x1x1 (![2] : Fin 1 → Fin S1x1x1.rank)
  bcast_S1x1x1_S4x160000x1_0_1_2 : S1x1x1.BroadcastsInDim S4x160000x1 (![0, 1, 2] : Fin 3 → Fin S4x160000x1.rank)
  shapeCasts_S4x160000x1_S640000x1 : S4x160000x1.ShapeCasts S640000x1
  reducesTo_S640000x1_S1_d0 : S640000x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  shapeCasts_S640000x1_S4x160000x1 : S640000x1.ShapeCasts S4x160000x1
  bcast_S4x160000x1_S4x160000x128_0_1_2 : S4x160000x1.BroadcastsInDim S4x160000x128 (![0, 1, 2] : Fin 3 → Fin S4x160000x128.rank)
  bcast_S_S10000x128 : S_.BroadcastsInDim S10000x128 (![] : Fin 0 → Fin S10000x128.rank)
  bcast_S10000x128_S4x10000x128_1_2 : S10000x128.BroadcastsInDim S4x10000x128 (![1, 2] : Fin 2 → Fin S4x10000x128.rank)
  slices_S256x128_S128x128_0_0 : S256x128.Slices ![0, 0] S128x128
  slices_S256x128_S128x128_128_0 : S256x128.Slices ![128, 0] S128x128
  dot_S4000x128_S128x128_S4000x128_1_0_0_1_n_n_wf : DotDims.WF S4000x128 S128x128 S4000x128 [1] [0] [0] [1] [] []
  gather_S4x10000x1_S160000x1_S4x160000x1_02_1_n_n_1_1_411_wf : GatherDims.WF S4x10000x1 S160000x1 S4x160000x1 [0, 2] [1] [] [1] [] 1 ![4, 1, 1]
  gather_S4x10000x128_S160000x1_S4x160000x128_02_1_n_n_1_1_41128_wf : GatherDims.WF S4x10000x128 S160000x1 S4x160000x128 [0, 2] [1] [] [1] [] 1 ![4, 1, 128]
  scatter_S4x10000x128_S160000x1_S4x160000x128_02_1_1_1_wf : ScatterDims.WF S4x10000x128 S160000x1 S4x160000x128 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S40000x128.size a
  hwx0_4 : ∀ i : grid0.Coords, EltTy.bits .bf16 = 32 ∨ (Rect.block (s := S40000x128) S4000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x2.size a ≤ S40000x2.size a
  hwx0_5 : ∀ i : grid0.Coords, EltTy.bits .f32 = 32 ∨ (Rect.block (s := S40000x2) S4000x2.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .bf16 = 32 ∨ (Rect.block (s := S40000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S40000x128.size a
  hwx1_5 : ∀ i : grid1.Coords, EltTy.bits .f32 = 32 ∨ (Rect.block (s := S40000x128) S4000x128.size (cc1_transform_5 i) (hinb1_5 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S4x10000x1_S160000x1_S4x160000x1_02_1_n_n_1_1_411 : GatherDims S4x10000x1 S160000x1 S4x160000x1 where
  offsetDims := [0, 2]
  collapsedSliceDims := [1]
  operandBatchingDims := []
  startIndicesBatchingDims := []
  startIndexMap := [1]
  indexVectorDim := 1
  sliceSizes := ![4, 1, 1]
  wf := gather_S4x10000x1_S160000x1_S4x160000x1_02_1_n_n_1_1_411_wf
def gather_S4x10000x128_S160000x1_S4x160000x128_02_1_n_n_1_1_41128 : GatherDims S4x10000x128 S160000x1 S4x160000x128 where
  offsetDims := [0, 2]
  collapsedSliceDims := [1]
  operandBatchingDims := []
  startIndicesBatchingDims := []
  startIndexMap := [1]
  indexVectorDim := 1
  sliceSizes := ![4, 1, 128]
  wf := gather_S4x10000x128_S160000x1_S4x160000x128_02_1_n_n_1_1_41128_wf
def scatter_S4x10000x128_S160000x1_S4x160000x128_02_1_1_1 : ScatterDims S4x10000x128 S160000x1 S4x160000x128 where
  updateWindowDims := [0, 2]
  insertedWindowDims := [1]
  scatterDimsToOperandDims := [1]
  indexVectorDim := 1
  wf := scatter_S4x10000x128_S160000x1_S4x160000x128_02_1_1_1_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S4000x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v64) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v69) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x10000x128 : Shape := ⟨3, ![4, 10000, 128]⟩
abbrev S160000x2 : Shape := ⟨2, ![160000, 2]⟩
abbrev S128x128 : Shape := ⟨2, ![128, 128]⟩
abbrev S128 : Shape := ⟨1, ![128]⟩
abbrev S256x1 : Shape := ⟨2, ![256, 1]⟩
abbrev S1 : Shape := ⟨1, ![1]⟩
abbrev S256x128 : Shape := ⟨2, ![256, 128]⟩
abbrev S1x1x128 : Shape := ⟨3, ![1, 1, 128]⟩
abbrev S_ : Shape := ⟨0, ![]⟩
abbrev S160000x1 : Shape := ⟨2, ![160000, 1]⟩
abbrev S160000 : Shape := ⟨1, ![160000]⟩
abbrev S4x160000x128 : Shape := ⟨3, ![4, 160000, 128]⟩
abbrev S4x160000x256 : Shape := ⟨3, ![4, 160000, 256]⟩
abbrev S4x160000x1 : Shape := ⟨3, ![4, 160000, 1]⟩
abbrev S1x1x1 : Shape := ⟨3, ![1, 1, 1]⟩
abbrev S640000x1 : Shape := ⟨2, ![640000, 1]⟩
abbrev S1x1 : Shape := ⟨2, ![1, 1]⟩
abbrev S10000x128 : Shape := ⟨2, ![10000, 128]⟩
abbrev S4x10000x256 : Shape := ⟨3, ![4, 10000, 256]⟩

abbrev nBuf : Space → Nat
  | .hbm => 74
  | .vmem => 0
  | .smem => 0
  | _ => 0

abbrev bufTy : (tb : Table) → Fin (tcTables nBuf tb) → BufTy
  | .hbm, ⟨0, _⟩ => ⟨S4x10000x128, .f32⟩
  | .hbm, ⟨1, _⟩ => ⟨S160000x2, .i32⟩
  | .hbm, ⟨2, _⟩ => ⟨S128x128, .f32⟩
  | .hbm, ⟨3, _⟩ => ⟨S128, .f32⟩
  | .hbm, ⟨4, _⟩ => ⟨S256x1, .f32⟩
  | .hbm, ⟨5, _⟩ => ⟨S1, .f32⟩
  | .hbm, ⟨6, _⟩ => ⟨S256x128, .f32⟩
  | .hbm, ⟨7, _⟩ => ⟨S128, .f32⟩
  | .hbm, ⟨8, _⟩ => ⟨S4x10000x128, .f32⟩
  | .hbm, ⟨9, _⟩ => ⟨S1x1x128, .f32⟩
  | .hbm, ⟨10, _⟩ => ⟨S4x10000x128, .f32⟩
  | .hbm, ⟨11, _⟩ => ⟨S4x10000x128, .f32⟩
  | .hbm, ⟨12, _⟩ => ⟨S_, .f32⟩
  | .hbm, ⟨13, _⟩ => ⟨S4x10000x128, .f32⟩
  | .hbm, ⟨14, _⟩ => ⟨S4x10000x128, .f32⟩
  | .hbm, ⟨15, _⟩ => ⟨S160000x1, .i32⟩
  | .hbm, ⟨16, _⟩ => ⟨S160000, .i32⟩
  | .hbm, ⟨17, _⟩ => ⟨S160000x1, .i32⟩
  | .hbm, ⟨18, _⟩ => ⟨S160000, .i32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S4x160000x128, .f32⟩
  | .hbm, ⟨28, _⟩ => ⟨S_, .i32⟩
  | .hbm, ⟨29, _⟩ => ⟨S160000, .i32⟩
  | .hbm, ⟨30, _⟩ => ⟨S160000, .i1⟩
  | .hbm, ⟨31, _⟩ => ⟨S_, .i32⟩
  | .hbm, ⟨32, _⟩ => ⟨S160000, .i32⟩
  | .hbm, ⟨33, _⟩ => ⟨S160000, .i32⟩
  | .hbm, ⟨34, _⟩ => ⟨S160000, .i32⟩
  | .hbm, ⟨35, _⟩ => ⟨S160000x1, .i32⟩
  | .hbm, ⟨36, _⟩ => ⟨S4x160000x128, .f32⟩
  | .hbm, ⟨37, _⟩ => ⟨S4x160000x256, .f32⟩
  | .hbm, ⟨38, _⟩ => ⟨S4x160000x1, .f32⟩
  | .hbm, ⟨39, _⟩ => ⟨S1x1x1, .f32⟩
  | .hbm, ⟨40, _⟩ => ⟨S4x160000x1, .f32⟩
  | .hbm, ⟨41, _⟩ => ⟨S4x160000x1, .f32⟩
  | .hbm, ⟨42, _⟩ => ⟨S4x160000x1, .f32⟩
  | .hbm, ⟨43, _⟩ => ⟨S640000x1, .f32⟩
  | .hbm, ⟨44, _⟩ => ⟨S_, .f32⟩
  | .hbm, ⟨45, _⟩ => ⟨S1, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S1x1, .f32⟩
  | .hbm, ⟨50, _⟩ => ⟨S640000x1, .f32⟩
  | .hbm, ⟨51, _⟩ => ⟨S640000x1, .f32⟩
  | .hbm, ⟨52, _⟩ => ⟨S640000x1, .f32⟩
  | .hbm, ⟨53, _⟩ => ⟨S_, .f32⟩
  | .hbm, ⟨54, _⟩ => ⟨S1, .f32⟩
  | .hbm, ⟨55, _⟩ => ⟨S1x1, .f32⟩
  | .hbm, ⟨56, _⟩ => ⟨S640000x1, .f32⟩
  | .hbm, ⟨57, _⟩ => ⟨S640000x1, .f32⟩
  | .hbm, ⟨58, _⟩ => ⟨S4x160000x1, .f32⟩
  | .hbm, ⟨59, _⟩ => ⟨S4x160000x128, .f32⟩
  | .hbm, ⟨60, _⟩ => ⟨S4x160000x128, .f32⟩
  | .hbm, ⟨61, _⟩ => ⟨S_, .f32⟩
  | .hbm, ⟨62, _⟩ => ⟨S10000x128, .f32⟩
  | .hbm, ⟨63, _⟩ => ⟨S160000x1, .i32⟩
  | .hbm, ⟨64, _⟩ => ⟨S4x10000x128, .f32⟩
  | .hbm, ⟨65, _⟩ => ⟨S4x10000x128, .f32⟩
  | .hbm, ⟨66, _⟩ => ⟨S4x10000x256, .f32⟩
  | .hbm, ⟨67, _⟩ => ⟨S4x10000x128, .f32⟩
  | .hbm, ⟨68, _⟩ => ⟨S1x1x128, .f32⟩
  | .hbm, ⟨69, _⟩ => ⟨S4x10000x128, .f32⟩
  | .hbm, ⟨70, _⟩ => ⟨S4x10000x128, .f32⟩
  | .hbm, ⟨71, _⟩ => ⟨S_, .f32⟩
  | .hbm, ⟨72, _⟩ => ⟨S4x10000x128, .f32⟩
  | .hbm, ⟨73, _⟩ => ⟨S4x10000x128, .f32⟩
  | _, _ => ⟨S4x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call1_cst : Ref sig .tc := ⟨.hbm, 71, rfl⟩
abbrev main_call1_v0 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x10000x128_0_1_2 : S1x1x128.BroadcastsInDim S4x10000x128 (![0, 1, 2] : Fin 3 → Fin S4x10000x128.rank)
  bcast_S_S4x10000x128 : S_.BroadcastsInDim S4x10000x128 (![] : Fin 0 → Fin S4x10000x128.rank)
  slices_S160000x2_S160000x1_0_0 : S160000x2.Slices ![0, 0] S160000x1
  shapeCasts_S160000x1_S160000 : S160000x1.ShapeCasts S160000
  slices_S160000x2_S160000x1_0_1 : S160000x2.Slices ![0, 1] S160000x1
  bcast_S_S160000 : S_.BroadcastsInDim S160000 (![] : Fin 0 → Fin S160000.rank)
  bcast_S160000_S160000x1_0 : S160000.BroadcastsInDim S160000x1 (![0] : Fin 1 → Fin S160000x1.rank)
  concatenates_S4x160000x128_S4x160000x128_S4x160000x256_d2 : Shape.Concatenates [S4x160000x128, S4x160000x128] S4x160000x256 2
  bcast_S1_S1x1x1_2 : S1.BroadcastsInDim S1x1x1 (![2] : Fin 1 → Fin S1x1x1.rank)
  bcast_S1x1x1_S4x160000x1_0_1_2 : S1x1x1.BroadcastsInDim S4x160000x1 (![0, 1, 2] : Fin 3 → Fin S4x160000x1.rank)
  shapeCasts_S4x160000x1_S640000x1 : S4x160000x1.ShapeCasts S640000x1
  reducesTo_S640000x1_S1_d0 : S640000x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  shapeCasts_S640000x1_S4x160000x1 : S640000x1.ShapeCasts S4x160000x1
  bcast_S4x160000x1_S4x160000x128_0_1_2 : S4x160000x1.BroadcastsInDim S4x160000x128 (![0, 1, 2] : Fin 3 → Fin S4x160000x128.rank)
  bcast_S_S10000x128 : S_.BroadcastsInDim S10000x128 (![] : Fin 0 → Fin S10000x128.rank)
  bcast_S10000x128_S4x10000x128_1_2 : S10000x128.BroadcastsInDim S4x10000x128 (![1, 2] : Fin 2 → Fin S4x10000x128.rank)
  concatenates_S4x10000x128_S4x10000x128_S4x10000x256_d2 : Shape.Concatenates [S4x10000x128, S4x10000x128] S4x10000x256 2
  dot_S4x10000x128_S128x128_S4x10000x128_2_0_01_1_n_n_wf : DotDims.WF S4x10000x128 S128x128 S4x10000x128 [2] [0] [0, 1] [1] [] []
  gather_S4x10000x128_S160000x1_S4x160000x128_02_1_n_n_1_1_41128_wf : GatherDims.WF S4x10000x128 S160000x1 S4x160000x128 [0, 2] [1] [] [1] [] 1 ![4, 1, 128]
  dot_S4x160000x256_S256x1_S4x160000x1_2_0_01_1_n_n_wf : DotDims.WF S4x160000x256 S256x1 S4x160000x1 [2] [0] [0, 1] [1] [] []
  scatter_S4x10000x128_S160000x1_S4x160000x128_02_1_1_1_wf : ScatterDims.WF S4x10000x128 S160000x1 S4x160000x128 [0, 2] [1] [1] 1
  dot_S4x10000x256_S256x128_S4x10000x128_2_0_01_1_n_n_wf : DotDims.WF S4x10000x256 S256x128 S4x10000x128 [2] [0] [0, 1] [1] [] []

variable [Facts₀]

def dot_S4x10000x128_S128x128_S4x10000x128_2_0_01_1_n_n : DotDims S4x10000x128 S128x128 S4x10000x128 where
  lhsContracting := [2]
  rhsContracting := [0]
  lhsNonContracting := [0, 1]
  rhsNonContracting := [1]
  lhsBatch := []
  rhsBatch := []
  wf := dot_S4x10000x128_S128x128_S4x10000x128_2_0_01_1_n_n_wf
def gather_S4x10000x128_S160000x1_S4x160000x128_02_1_n_n_1_1_41128 : GatherDims S4x10000x128 S160000x1 S4x160000x128 where
  offsetDims := [0, 2]
  collapsedSliceDims := [1]
  operandBatchingDims := []
  startIndicesBatchingDims := []
  startIndexMap := [1]
  indexVectorDim := 1
  sliceSizes := ![4, 1, 128]
  wf := gather_S4x10000x128_S160000x1_S4x160000x128_02_1_n_n_1_1_41128_wf
def dot_S4x160000x256_S256x1_S4x160000x1_2_0_01_1_n_n : DotDims S4x160000x256 S256x1 S4x160000x1 where
  lhsContracting := [2]
  rhsContracting := [0]
  lhsNonContracting := [0, 1]
  rhsNonContracting := [1]
  lhsBatch := []
  rhsBatch := []
  wf := dot_S4x160000x256_S256x1_S4x160000x1_2_0_01_1_n_n_wf
def scatter_S4x10000x128_S160000x1_S4x160000x128_02_1_1_1 : ScatterDims S4x10000x128 S160000x1 S4x160000x128 where
  updateWindowDims := [0, 2]
  insertedWindowDims := [1]
  scatterDimsToOperandDims := [1]
  indexVectorDim := 1
  wf := scatter_S4x10000x128_S160000x1_S4x160000x128_02_1_1_1_wf
def dot_S4x10000x256_S256x128_S4x10000x128_2_0_01_1_n_n : DotDims S4x10000x256 S256x128 S4x10000x128 where
  lhsContracting := [2]
  rhsContracting := [0]
  lhsNonContracting := [0, 1]
  rhsNonContracting := [1]
  lhsBatch := []
  rhsBatch := []
  wf := dot_S4x10000x256_S256x128_S4x10000x128_2_0_01_1_n_n_wf

class Facts : Prop extends Facts₀ where

variable [Facts]
-- ==== Proof.Chain.lean ====
/-
  The host computation between the two dense layers, cut into the functions both programs share.

  From the edge list (one row (source, target) per edge): the two columns as vectors; an index made
  non-negative by adding the node count once where it is negative, laid out as one start index per edge.
  From per-edge attention logits: the softmax over ALL batch-edge pairs at once (subtract the overall maximum,
  exponentiate, divide by the overall sum). From the attention weights and the gathered target rows: the
  weighted messages. From the messages: their sum onto the source nodes, row by row, starting from zero.
  Both programs apply exactly these; they differ only in how the logits going in are computed.
-/
import proofs.«400300_j60876866453744_3_alg».proof.Proof.Gen.KernelIdeal

noncomputable section

namespace Cert.Bridge.Chain

open Idealize.ShloMosaic Idealize.ShloMosaic.TcCoe Cert.KernelIdeal Cert.KernelIdeal.Gen

variable {F : FTy → Type} [FloatOps F]

/-- The source column of the edge list. -/
def edgeCol0 (e : (⟨S160000x2, .i32⟩ : BufTy).Contents (Elt F)) : (⟨S160000, .i32⟩ : BufTy).Contents (Elt F) :=
  shapeCast _ (extractStridedSlice S160000x1 ![0, 0] e slices_S160000x2_S160000x1_0_0) shapeCasts_S160000x1_S160000

/-- The target column of the edge list. -/
def edgeCol1 (e : (⟨S160000x2, .i32⟩ : BufTy).Contents (Elt F)) : (⟨S160000, .i32⟩ : BufTy).Contents (Elt F) :=
  shapeCast _ (extractStridedSlice S160000x1 ![0, 1] e slices_S160000x2_S160000x1_0_1) shapeCasts_S160000x1_S160000

/-- A node index read the way array indexing reads it: a negative one counts from the end (the node count is
    added once); as one start index per edge. -/
def wrapIdx (v : (⟨S160000, .i32⟩ : BufTy).Contents (Elt F)) : (⟨S160000x1, .i32⟩ : BufTy).Contents (Elt F) :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 10000#32))) v)

/-- The softmax over all batch-edge pairs at once, of logits laid out [batch, edge, 1]. -/
def softmaxAll (t : (⟨S4x160000x1, .f32⟩ : BufTy).Contents (Elt F)) : (⟨S4x160000x1, .f32⟩ : BufTy).Contents (Elt F) :=
  shapeCast _
    (Host.divf
      (Host.exp (subf (shapeCast _ t shapeCasts_S4x160000x1_S640000x1)
        (broadcastInDim S640000x1 ![0, 1] bcast_S1x1_S640000x1_0_1 (broadcastInDim S1x1 ![1] bcast_S1_S1x1_1
          (maximumf (broadcastInDim S1 ![] bcast_S_S1 (constant S_ .f32 0xFF800000#32))
            (Host.reduce FloatOps.maximumf (shapeCast _ t shapeCasts_S4x160000x1_S640000x1) (constant S_ .f32 0xFF800000#32) reducesTo_S640000x1_S1_d0 h_S_))))))
      (broadcastInDim S640000x1 ![0, 1] bcast_S1x1_S640000x1_0_1 (broadcastInDim S1x1 ![1] bcast_S1_S1x1_1
        (Host.reduceAdd
          (Host.exp (subf (shapeCast _ t shapeCasts_S4x160000x1_S640000x1)
            (broadcastInDim S640000x1 ![0, 1] bcast_S1x1_S640000x1_0_1 (broadcastInDim S1x1 ![1] bcast_S1_S1x1_1
              (maximumf (broadcastInDim S1 ![] bcast_S_S1 (constant S_ .f32 0xFF800000#32))
                (Host.reduce FloatOps.maximumf (shapeCast _ t shapeCasts_S4x160000x1_S640000x1) (constant S_ .f32 0xFF800000#32) reducesTo_S640000x1_S1_d0 h_S_))))))
          (constant S_ .f32 0x00000000#32) reducesTo_S640000x1_S1_d0 h_S_))))
    shapeCasts_S640000x1_S4x160000x1

/-- The messages: each gathered target row scaled by its edge's attention weight. -/
def weighted (a : (⟨S4x160000x1, .f32⟩ : BufTy).Contents (Elt F)) (rows : (⟨S4x160000x128, .f32⟩ : BufTy).Contents (Elt F)) :
    (⟨S4x160000x128, .f32⟩ : BufTy).Contents (Elt F) :=
  mulf (broadcastInDim S4x160000x128 ![0, 1, 2] bcast_S4x160000x1_S4x160000x128_0_1_2 a) rows

/-- The messages summed onto their source nodes, per batch element, from an array of zeros; the source index is
    used as it stands (an index outside the node range drops its message). -/
def scatterRows (src : (⟨S160000, .i32⟩ : BufTy).Contents (Elt F)) (msg : (⟨S4x160000x128, .f32⟩ : BufTy).Contents (Elt F)) :
    (⟨S4x10000x128, .f32⟩ : BufTy).Contents (Elt F) :=
  Host.scatterAdd scatter_S4x10000x128_S160000x1_S4x160000x128_02_1_1_1
    (broadcastInDim S4x10000x128 ![1, 2] bcast_S10000x128_S4x10000x128_1_2 (broadcastInDim S10000x128 ![] bcast_S_S10000x128 (constant S_ .f32 0x00000000#32)))
    (broadcastInDim S160000x1 ![0] bcast_S160000_S160000x1_0 src) msg

/-- The logits the way the kernel computes them: the two per-node projections (columns 0 and 1 of the
    two-column array, laid out [batch, node, 2]) gathered at the wrapped source and target indices, added, plus
    the attention bias. -/
def nodeLogits (acat : (⟨S40000x2, .f32⟩ : BufTy).Contents (Elt F)) (e : (⟨S160000x2, .i32⟩ : BufTy).Contents (Elt F))
    (ba : (⟨S1, .f32⟩ : BufTy).Contents (Elt F)) : (⟨S4x160000x1, .f32⟩ : BufTy).Contents (Elt F) :=
  addf
    (addf
      (Host.gather gather_S4x10000x1_S160000x1_S4x160000x1_02_1_n_n_1_1_411
        (extractStridedSlice S4x10000x1 ![0, 0, 0] (shapeCast _ acat shapeCasts_S40000x2_S4x10000x2) slices_S4x10000x2_S4x10000x1_0_0_0)
        (wrapIdx (edgeCol0 e)))
      (Host.gather gather_S4x10000x1_S160000x1_S4x160000x1_02_1_n_n_1_1_411
        (extractStridedSlice S4x10000x1 ![0, 0, 1] (shapeCast _ acat shapeCasts_S40000x2_S4x10000x2) slices_S4x10000x2_S4x10000x1_0_0_1)
        (wrapIdx (edgeCol1 e))))
    (broadcastInDim S4x160000x1 ![0, 1, 2] bcast_S1x1x1_S4x160000x1_0_1_2 (broadcastInDim S1x1x1 ![2] bcast_S1_S1x1x1_2 ba))

/-- The attention vector's two halves (rows 0..127 and rows 128..255 of the one-column input) laid side by side
    as columns 0 and 1 of a 128 x 128 matrix whose other columns are zero. -/
def padCols (wa : (⟨S256x1, .f32⟩ : BufTy).Contents (Elt F)) : (⟨S128x128, .f32⟩ : BufTy).Contents (Elt F) :=
  concatenate S128x128 1
    [⟨S128x2, concatenate S128x2 1
        [⟨S128x1, extractStridedSlice S128x1 ![0, 0] wa slices_S256x1_S128x1_0_0⟩,
         ⟨S128x1, extractStridedSlice S128x1 ![128, 0] wa slices_S256x1_S128x1_128_0⟩]
        concatenates_S128x1_S128x1_S128x2_d1⟩,
     ⟨S128x126, broadcastInDim S128x126 ![] bcast_S_S128x126 (constant S_ .f32 0x00000000#32)⟩]
    concatenates_S128x2_S128x126_S128x128_d1

/-- What the kernel's program hands the second dense layer as the aggregated messages, from the first layer's
    two output arrays, the edge list and the attention bias: the hidden rows regrouped per batch element,
    gathered at the wrapped targets, weighted by the softmax of tanh of the logits, rounded through the narrower
    float format and back (the identity on exact values), and summed onto the sources. -/
def aggregated (h : (⟨S40000x128, .bf16⟩ : BufTy).Contents (Elt F)) (acat : (⟨S40000x2, .f32⟩ : BufTy).Contents (Elt F))
    (e : (⟨S160000x2, .i32⟩ : BufTy).Contents (Elt F)) (ba : (⟨S1, .f32⟩ : BufTy).Contents (Elt F)) :
    (⟨S4x10000x128, .f32⟩ : BufTy).Contents (Elt F) :=
  scatterRows (edgeCol0 e)
    (extf .f32
      (truncf .bf16
        (weighted (softmaxAll (Host.tanh (nodeLogits acat e ba)))
          (extf .f32
            (Host.gather gather_S4x10000x128_S160000x1_S4x160000x128_02_1_n_n_1_1_41128
              (shapeCast _ h shapeCasts_S40000x128_S4x10000x128) (wrapIdx (edgeCol1 e)))
            bitsLt_bf16_f32))
        bitsLt_bf16_f32)
      bitsLt_bf16_f32)

end Cert.Bridge.Chain

end
-- ==== Proof.HostStretches.lean ====
/-
  The buffers of the kernel's program at the boundaries of its three host stretches, read back.

  Before the first dense layer the host only regroups: the node features flattened to rows, the bias as a row,
  the attention vector as the padded two-column matrix. Between the layers it computes the aggregated messages
  (the shared chain, fed with the first layer's two output arrays), regroups them to rows, and cuts the
  combining weights into their two halves. After the second layer it regroups the rows per batch element.
-/
import proofs.«400300_j60876866453744_3_alg».proof.Proof.Gen.KernelIdeal.Frame
import proofs.«400300_j60876866453744_3_alg».proof.Proof.Chain
import Idealize.ShloMosaic.Lib.StableHlo.Run

set_option maxRecDepth 16384

noncomputable section

namespace Cert.Bridge.Host

open Idealize.ShloMosaic Idealize.ShloMosaic.TcCoe Idealize.SL.Sem Idealize.ShloMosaic.StableHlo
open Cert.KernelIdeal Cert.KernelIdeal.Gen Cert.Bridge.Chain

variable {F : FTy → Type} [FloatOps F]
variable (m : (ℓ : Loc nD τ sig) → Buf (Elt F) ℓ) (ρ : Dev nD → PrngReg)

/-! ## Before the first layer -/

theorem entry_rows (c : Dev nD) :
    V1 m ρ c main_v0 = shapeCast _ (m ((c.tc : Thread nD τ).loc main_arg0)) shapeCasts_S4x10000x128_S40000x128 := by
  dsimp only [V1, W1, hostOps0]; after_results <;> rfl

theorem entry_weights (c : Dev nD) : V1 m ρ c main_arg2 = m ((c.tc : Thread nD τ).loc main_arg2) := by
  dsimp only [V1, W1, hostOps0]; after_results <;> rfl

theorem entry_bias (c : Dev nD) :
    V1 m ρ c main_v1 = shapeCast _ (m ((c.tc : Thread nD τ).loc main_arg3)) shapeCasts_S128_S1x128 := by
  dsimp only [V1, W1, hostOps0]; after_results <;> rfl

theorem entry_pad (c : Dev nD) : V1 m ρ c main_v6 = padCols (m ((c.tc : Thread nD τ).loc main_arg4)) := by
  dsimp only [V1, W1, hostOps0]; after_results <;> rfl

/-! ## What the first layer leaves, and the arguments, at its exit -/

theorem exit_hidden (c : Dev nD) : W2 m ρ c (Proc.devRef .tc main_v7_0) = (dat0 (V1 m ρ) c).arrAt 4 cfg0.N :=
  W2_arr m ρ c 4

theorem exit_logits (c : Dev nD) : W2 m ρ c (Proc.devRef .tc main_v7_1) = (dat0 (V1 m ρ) c).arrAt 5 cfg0.N :=
  W2_arr m ρ c 5

theorem exit_edges (c : Dev nD) : W2 m ρ c (Proc.devRef .tc main_arg1) = m ((c.tc : Thread nD τ).loc main_arg1) := by
  rw [W2_of_ne m ρ c main_arg1 (by decide)]; dsimp only [W1, hostOps0]; after_results <;> rfl

theorem exit_attn_bias (c : Dev nD) : W2 m ρ c (Proc.devRef .tc main_arg5) = m ((c.tc : Thread nD τ).loc main_arg5) := by
  rw [W2_of_ne m ρ c main_arg5 (by decide)]; dsimp only [W1, hostOps0]; after_results <;> rfl

theorem exit_comb_weights (c : Dev nD) : W2 m ρ c (Proc.devRef .tc main_arg6) = m ((c.tc : Thread nD τ).loc main_arg6) := by
  rw [W2_of_ne m ρ c main_arg6 (by decide)]; dsimp only [W1, hostOps0]; after_results <;> rfl

theorem exit_comb_bias (c : Dev nD) : W2 m ρ c (Proc.devRef .tc main_arg7) = m ((c.tc : Thread nD τ).loc main_arg7) := by
  rw [W2_of_ne m ρ c main_arg7 (by decide)]; dsimp only [W1, hostOps0]; after_results <;> rfl

/-! ## Between the layers -/

set_option maxHeartbeats 4000000 in
theorem mid_hidden (c : Dev nD) :
    V3 m ρ c main_v64 = shapeCast _ (shapeCast _ (W2 m ρ c (Proc.devRef .tc main_v7_0)) shapeCasts_S40000x128_S4x10000x128) shapeCasts_S4x10000x128_S40000x128 := by
  dsimp only [V3, W3, hostOps1]; after_results_simp <;> rfl

set_option maxHeartbeats 4000000 in
theorem mid_aggregated (c : Dev nD) :
    V3 m ρ c main_v65 = shapeCast _
      (aggregated (W2 m ρ c (Proc.devRef .tc main_v7_0)) (W2 m ρ c (Proc.devRef .tc main_v7_1))
        (W2 m ρ c (Proc.devRef .tc main_arg1)) (W2 m ρ c (Proc.devRef .tc main_arg5)))
      shapeCasts_S4x10000x128_S40000x128 := by
  dsimp only [V3, W3, hostOps1]; after_results_simp <;> rfl

set_option maxHeartbeats 4000000 in
theorem mid_weights_top (c : Dev nD) :
    V3 m ρ c main_v66 = extractStridedSlice S128x128 ![0, 0] (W2 m ρ c (Proc.devRef .tc main_arg6)) slices_S256x128_S128x128_0_0 := by
  dsimp only [V3, W3, hostOps1]; after_results_simp <;> rfl

set_option maxHeartbeats 4000000 in
theorem mid_weights_bottom (c : Dev nD) :
    V3 m ρ c main_v67 = extractStridedSlice S128x128 ![128, 0] (W2 m ρ c (Proc.devRef .tc main_arg6)) slices_S256x128_S128x128_128_0 := by
  dsimp only [V3, W3, hostOps1]; after_results_simp <;> rfl

set_option maxHeartbeats 4000000 in
theorem mid_bias (c : Dev nD) :
    V3 m ρ c main_v68 = shapeCast _ (W2 m ρ c (Proc.devRef .tc main_arg7)) shapeCasts_S128_S1x128 := by
  dsimp only [V3, W3, hostOps1]; after_results_simp <;> rfl

/-! ## After the second layer -/

theorem exit_out (c : Dev nD) : W4 m ρ c (Proc.devRef .tc main_v69) = (dat1 (V3 m ρ) c).arrAt 5 cfg1.N :=
  W4_arr m ρ c 5

theorem result (c : Dev nD) :
    W5 m ρ c (Proc.devRef .tc main_v70) = shapeCast _ (W4 m ρ c (Proc.devRef .tc main_v69)) shapeCasts_S40000x128_S4x10000x128 := by
  dsimp only [W5, hostOps2]; after_results <;> rfl

end Cert.Bridge.Host

end
-- ==== Proof.Spec.lean ====
/-
  The layers of the graph-attention block as plain functions on extended reals, over the flattened node axis
  (row r = 10000 * batch + node): a dense layer with bias and a clamp at zero, the projection of the hidden rows
  onto the first two columns of a 128 x 128 matrix (the two halves of the attention vector laid side by side),
  and the combining layer, whose 256-long contraction is written as the sum of its two 128-long halves.
  The zero the clamp compares against is kept as its word: both programs spell it by the same word.
-/
import proofs.«400300_j60876866453744_3_alg».proof.KernelIdeal
import Idealize.ShloMosaic.Lib.ValueIdx
import Idealize.ShloMosaic.PureOps.Ideal

noncomputable section

namespace Cert.Bridge

open Idealize.ShloMosaic Idealize.ShloMosaic.ValueIdx Cert.KernelIdeal

/-- The word of +0.0 read as an extended real. -/
abbrev z0 : EReal := Ideal.ofBits .f32 0x00000000#32

/-- Entry (r, q) of relu(X · W + b): the row-by-column sum, plus the bias of column q, clamped at zero. -/
def denseAt (X : S40000x128.Idx → EReal) (W : S128x128.Idx → EReal) (b : S1x128.Idx → EReal)
    (r : Fin 40000) (q : Fin 128) : EReal :=
  max ((∑ k : Fin 128, X (ix2 r k) * W (ix2 k q)) + b (ix2 0 q)) z0

/-- relu(X · W + b) as an array. -/
def dense (X : S40000x128.Idx → EReal) (W : S128x128.Idx → EReal) (b : S1x128.Idx → EReal) :
    S40000x128.Idx → EReal :=
  fun i => denseAt X W b (i 0) (i 1)

/-- Entry (r, j), j < 2, of H · A: row r of H against column j of A. -/
def projAt (H : S40000x128.Idx → EReal) (A : S128x128.Idx → EReal) (r : Fin 40000) (j : Fin 2) : EReal :=
  ∑ k : Fin 128, H (ix2 r k) * A (ix2 k ⟨j.val, by omega⟩)

/-- The first two columns of H · A as an array. -/
def proj (H : S40000x128.Idx → EReal) (A : S128x128.Idx → EReal) : S40000x2.Idx → EReal :=
  fun i => projAt H A (i 0) (i 1)

/-- Entry (r, q) of relu(h · W₁ + s · W₂ + b). -/
def combineAt (h s : S40000x128.Idx → EReal) (W₁ W₂ : S128x128.Idx → EReal) (b : S1x128.Idx → EReal)
    (r : Fin 40000) (q : Fin 128) : EReal :=
  max (((∑ k : Fin 128, h (ix2 r k) * W₁ (ix2 k q)) + (∑ k : Fin 128, s (ix2 r k) * W₂ (ix2 k q))) + b (ix2 0 q)) z0

/-- relu(h · W₁ + s · W₂ + b) as an array. -/
def combine (h s : S40000x128.Idx → EReal) (W₁ W₂ : S128x128.Idx → EReal) (b : S1x128.Idx → EReal) :
    S40000x128.Idx → EReal :=
  fun i => combineAt h s W₁ W₂ b (i 0) (i 1)

end Cert.Bridge

end
-- ==== Proof.Region0.lean ====
/-
  The first dense layer as whole arrays.

  The grid has ten points; point t handles rows 4000 t … 4000 t + 3999 of the flattened node features, with the
  weights, the bias row and the padded attention matrix resident. Its body stores relu(x · W + b) of its 4000 rows
  and, from that same value, the first two columns of its product with the padded matrix. The blocks tile the
  arrays, so after the region the two output arrays are relu(X · W + b) and its two-column projection, whole.
-/
import proofs.«400300_j60876866453744_3_alg».proof.Proof.Gen.KernelIdeal.Frame
import proofs.«400300_j60876866453744_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.Bridge.Region0

open Idealize.ShloMosaic Idealize.ShloMosaic.TcCoe Idealize.SL.Sem Idealize.ShloMosaic.ValueIdx
open Cert.KernelIdeal Cert.KernelIdeal.Gen Cert.Bridge

variable (V : (c : Dev nD) → (b : Ref sig .tc) → Buf (Elt Ideal) ((c : Thread nD τ).loc b))

/-- The zero offsets of a whole-buffer access, however they are spelt. -/
theorem hz : (![0, 0] : Fin 2 → Nat) = fun _ => 0 := funext fun a => by fin_cases a <;> rfl

/-! ## The product of a [4000,128] block with a [128,128] matrix, entry by entry -/

/-- The left operand's row coordinate is the output's row. -/
theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contraction index. -/
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contraction index. -/
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column coordinate is the output's column. -/
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Into the zero accumulator the block product at (p, q) is row p of the left operand against column q of the right. -/
theorem matmul_at {φ₁ φ₂ : FTy} (A : FVec Ideal S4000x128 φ₁) (B : FVec Ideal S128x128 φ₂) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's two stored values, entry by entry -/

/-- The hidden block at (p, q): row p of the loaded rows against column q of the weights, plus the bias of column q,
    clamped at zero. The two changes of float format are the identity on extended reals, the shape casts are to the
    same shape, and the bias row is repeated down the block. -/
theorem hidden_block_at (v0 : Vec Ideal S4000x128 .f32) (v3 : Vec Ideal S128x128 .f32) (v6 : Vec Ideal S1x128 .f32)
    (p : Fin 4000) (q : Fin 128) :
    k0_pay1 (F := Ideal) v0 v3 v6 (ix2 p q) = max ((∑ k : Fin 128, v0 (ix2 p k) * v3 (ix2 k q)) + v6 (ix2 0 q)) z0 := by
  unfold k0_pay1
  simp only [shapeCast_self]
  show max (matmul dot_S4000x128_S128x128_S4000x128_1_0_0_1_n_n none (truncf .bf16 v0 bitsLt_bf16_f32) (truncf .bf16 v3 bitsLt_bf16_f32) (constant (F := Ideal) S4000x128 .f32 0x00000000#32) (ix2 p q)
      + broadcastTo S4000x128 v6 broadcasts_S1x128_S4000x128 (ix2 p q)) z0 = _
  rw [matmul_at, broadcastTo_apply v6 broadcasts_S1x128_S4000x128 (ix2 p q) (ix2 0 q) (fun a => by
    match a with
    | ⟨0, _⟩ => rfl
    | ⟨1, _⟩ => rfl)]
  rfl

/-- The two-column block at (p, j): row p of the hidden block against column j of the padded matrix — the slice keeps
    columns 0 and 1 of the product at zero offsets. -/
theorem logits_block_at (v0 : Vec Ideal S4000x128 .f32) (v3 : Vec Ideal S128x128 .f32) (v6 : Vec Ideal S1x128 .f32)
    (v14 : Vec Ideal S128x128 .f32) (p : Fin 4000) (j : Fin 2) :
    k0_pay2 (F := Ideal) v0 v3 v6 v14 (ix2 p j)
      = ∑ k : Fin 128, k0_pay1 (F := Ideal) v0 v3 v6 (ix2 p k) * v14 (ix2 k ⟨j.val, by omega⟩) := by
  unfold k0_pay2
  simp only [shapeCast_self]
  refine (extractStridedSlice_apply ![0, 0] _ slices_S4000x128_o0_0_S4000x2 (ix2 p j) (ix2 p ⟨j.val, by omega⟩) (fun a => by
    match a with
    | ⟨0, _⟩ => show p.val = 0 + p.val; omega
    | ⟨1, _⟩ => show j.val = 0 + j.val; omega)).trans ?_
  rw [matmul_at]
  rfl

/-! ## The windows' blocks as parts of the arrays -/

/-- The printed index maps, decided once over the ten grid points: the three row-blocked windows (the rows, the hidden
    rows, the two columns) are at block (t, 0), the three resident ones (weights, bias, padded matrix) at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of grid point t's block of 4000 rows is row 4000·t + p of the array. -/
def row (t : Fin cfg0.N) (p : Fin 4000) : Fin 40000 :=
  ⟨4000 * t.val + p.val, by have ht : t.val < 10 := t.isLt; have hp := p.isLt; omega⟩

/-- The loaded rows at point t are rows 4000·t … 4000·t + 3999 of X. -/
theorem rows_read (c : Dev nD) (t : Fin cfg0.N) (p : Fin 4000) (k : Fin 128) :
    (iblk0 V c 0 t : Vec Ideal S4000x128 .f32) (ix2 p k) = (V c main_v0 : S40000x128.Idx → EReal) (ix2 (row t p) k) := by
  obtain ⟨e0, e1, -⟩ := idx_facts t
  show (V c main_v0 : S40000x128.Idx → EReal) (((cfg0.win 0).blk t).view.emb (ix2 p k)) = _
  refine congrArg _ (funext fun a => Fin.ext ?_)
  match a with
  | ⟨0, _⟩ => show win0_0.index t (0 : Fin 2) * 4000 + 1 * p.val = 4000 * t.val + p.val; omega
  | ⟨1, _⟩ => show win0_0.index t (1 : Fin 2) * 128 + 1 * k.val = k.val; omega

/-- The loaded weights are the whole matrix W at every point. -/
theorem weights_read (c : Dev nD) (t : Fin cfg0.N) (k q : Fin 128) :
    (iblk0 V c 1 t : Vec Ideal S128x128 .f32) (ix2 k q) = (V c main_arg2 : S128x128.Idx → EReal) (ix2 k q) := by
  obtain ⟨-, -, e0, e1, -⟩ := idx_facts t
  show (V c main_arg2 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The loaded bias is the whole row b at every point. -/
theorem bias_read (c : Dev nD) (t : Fin cfg0.N) (q : Fin 128) :
    (iblk0 V c 2 t : Vec Ideal S1x128 .f32) (ix2 0 q) = (V c main_v1 : S1x128.Idx → EReal) (ix2 0 q) := by
  obtain ⟨-, -, -, -, e0, e1, -⟩ := idx_facts t
  show (V c main_v1 : S1x128.Idx → EReal) (((cfg0.win 2).blk t).view.emb (ix2 0 q)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- The loaded padded matrix is the whole matrix at every point. -/
theorem padded_read (c : Dev nD) (t : Fin cfg0.N) (k q : Fin 128) :
    (iblk0 V c 3 t : Vec Ideal S128x128 .f32) (ix2 k q) = (V c main_v6 : S128x128.Idx → EReal) (ix2 k q) := by
  obtain ⟨-, -, -, -, -, -, e0, e1, -⟩ := idx_facts t
  show (V c main_v6 : S128x128.Idx → EReal) (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- Entry (p, q) of the hidden rows' block at point t sits at (4000·t + p, q) of the array. -/
theorem hidden_emb (t : Fin cfg0.N) (p : Fin 4000) (q : Fin 128) :
    (((cfg0.win 4).blk t).view.emb (ix2 p q) : S40000x128.Idx) = ix2 (row t p) q := by
  obtain ⟨-, -, -, -, -, -, -, -, e0, e1, -⟩ := idx_facts t
  refine funext fun a => Fin.ext ?_
  match a with
  | ⟨0, _⟩ => show win0_4.index t (0 : Fin 2) * 4000 + 1 * p.val = 4000 * t.val + p.val; omega
  | ⟨1, _⟩ => show win0_4.index t (1 : Fin 2) * 128 + 1 * q.val = q.val; omega

/-! ## The hidden rows -/

/-- The hidden block computed at point t, at (p, q), is entry (4000·t + p, q) of relu(X · W + b). -/
theorem hidden_block_entry (c : Dev nD) (t : Fin cfg0.N) (p : Fin 4000) (q : Fin 128) :
    k0_pay1 (F := Ideal) (iblk0 V c 0 t) (iblk0 V c 1 t) (iblk0 V c 2 t) (ix2 p q)
      = denseAt (V c main_v0) (V c main_arg2) (V c main_v1) (row t p) q := by
  refine (hidden_block_at (iblk0 V c 0 t) (iblk0 V c 1 t) (iblk0 V c 2 t) p q).trans ?_
  unfold denseAt
  rw [bias_read V c t q]
  refine congrArg (fun s => max (s + _) z0) (Finset.sum_congr rfl fun k _ => ?_)
  rw [rows_read V c t p k, weights_read V c t k q]

/-- What point t writes back to the hidden rows' array is block t of relu(X · W + b). -/
theorem hidden_flushed (c : Dev nD) (t : Fin cfg0.N) :
    (dat0 (F := Ideal) V c).flushed 4 t
      = ((cfg0.win 4).blk t).view.read (Elt Ideal) (dense (V c main_v0) (V c main_arg2) (V c main_v1)) := by
  show (cfg0.win 4).cut (grid0.coords t) ((dat0 (F := Ideal) V c).after 4 t) = _
  rw [after0_4]
  unfold out0_4
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (ix2 p q)
    = dense (V c main_v0) (V c main_arg2) (V c main_v1) (((cfg0.win 4).blk t).view.emb (ix2 p q))
  rw [hidden_emb t p q, hidden_block_entry V c t p q]
  rfl

/-- An index of the hidden rows' array is in point t's block iff each coordinate is in the block's range on its axis. -/
theorem hidden_mem_blk (t : Fin cfg0.N) (i : S40000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v7_0).slice (win0_4.rect t)).set ↔ _
  rw [View.set_slice_whole, Rect.mem_set_unit]
  exact Iff.rfl

/-- Every row is in some point's block: row r is in block r / 4000. -/
theorem hidden_cover (i : S40000x128.Idx) :
    ∃ t : Fin cfg0.N, (cfg0.win 4).flush t = true ∧ i ∈ ((cfg0.win 4).blk t).view.set := by
  have hi0 : (i 0).val < 40000 := (i 0).isLt
  have hi1 : (i 1).val < 128 := (i 1).isLt
  let t : Fin cfg0.N := ⟨(i 0).val / 4000, show (i 0).val / 4000 < 10 by omega⟩
  obtain ⟨-, -, -, -, -, -, -, -, e0, e1, -⟩ := idx_facts t
  have ht : t.val = (i 0).val / 4000 := rfl
  refine ⟨t, flush0_4 t, ?_⟩
  rw [hidden_mem_blk]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- After the first region the hidden-row array holds relu(X · W_t + b_t) of the arrays the region found. -/
theorem hidden_arr (c : Dev nD) :
    (dat0 (F := Ideal) V c).arrAt 4 cfg0.N = dense (V c main_v0) (V c main_arg2) (V c main_v1) :=
  (dat0 (F := Ideal) V c).arrAt_eq_of_cover 4 (dense (V c main_v0) (V c main_arg2) (V c main_v1))
    (fun t _ => hidden_flushed V c t) hidden_cover

/-! ## The two columns -/

/-- Entry (p, j) of the two columns' block at point t sits at (4000·t + p, j) of the array. -/
theorem logits_emb (t : Fin cfg0.N) (p : Fin 4000) (j : Fin 2) :
    (((cfg0.win 5).blk t).view.emb (ix2 p j) : S40000x2.Idx) = ix2 (row t p) j := by
  obtain ⟨-, -, -, -, -, -, -, -, -, -, e0, e1⟩ := idx_facts t
  refine funext fun a => Fin.ext ?_
  match a with
  | ⟨0, _⟩ => show win0_5.index t (0 : Fin 2) * 4000 + 1 * p.val = 4000 * t.val + p.val; omega
  | ⟨1, _⟩ => show win0_5.index t (1 : Fin 2) * 2 + 1 * j.val = j.val; omega

/-- The two-column block computed at point t, at (p, j), is row 4000·t + p of relu(X · W + b) against column j of the
    padded matrix: the product's left operand is the hidden block the same body computed. -/
theorem logits_block_entry (c : Dev nD) (t : Fin cfg0.N) (p : Fin 4000) (j : Fin 2) :
    k0_pay2 (F := Ideal) (iblk0 V c 0 t) (iblk0 V c 1 t) (iblk0 V c 2 t) (iblk0 V c 3 t) (ix2 p j)
      = projAt (dense (V c main_v0) (V c main_arg2) (V c main_v1)) (V c main_v6) (row t p) j := by
  refine (logits_block_at (iblk0 V c 0 t) (iblk0 V c 1 t) (iblk0 V c 2 t) (iblk0 V c 3 t) p j).trans ?_
  unfold projAt
  refine Finset.sum_congr rfl fun k _ => ?_
  rw [hidden_block_entry V c t p k, padded_read V c t k ⟨j.val, by omega⟩]
  rfl

/-- What point t writes back to the two columns' array is block t of the hidden rows against the padded matrix. -/
theorem logits_flushed (c : Dev nD) (t : Fin cfg0.N) :
    (dat0 (F := Ideal) V c).flushed 5 t
      = ((cfg0.win 5).blk t).view.read (Elt Ideal) (proj (dense (V c main_v0) (V c main_arg2) (V c main_v1)) (V c main_v6)) := by
  show (cfg0.win 5).cut (grid0.coords t) ((dat0 (F := Ideal) V c).after 5 t) = _
  rw [after0_5]
  unfold out0_5
  rw [View.canon_unit_zero hz]
  simp only [View.ld_unit_zero (S := S4000x128) hz, View.ld_unit_zero (S := S128x128) hz, View.ld_unit_zero (S := S1x128) hz]
  funext y
  obtain ⟨p, j, rfl⟩ : ∃ (p : Fin 4000) (j : Fin 2), y = ix2 p j := ⟨y 0, y 1, eq_ix2 y⟩
  show k0_pay2 (F := Ideal) (iblk0 V c 0 t) (iblk0 V c 1 t) (iblk0 V c 2 t) (iblk0 V c 3 t) (ix2 p j)
    = proj (dense (V c main_v0) (V c main_arg2) (V c main_v1)) (V c main_v6) (((cfg0.win 5).blk t).view.emb (ix2 p j))
  rw [logits_emb t p j, logits_block_entry V c t p j]
  rfl

/-- An index of the two columns' array is in point t's block iff each coordinate is in the block's range on its axis. -/
theorem logits_mem_blk (t : Fin cfg0.N) (i : S40000x2.Idx) :
    i ∈ ((cfg0.win 5).blk t).view.set ↔ ∀ a : Fin 2, win0_5.index t a * S4000x2.size a ≤ (i a).val ∧ (i a).val < win0_5.index t a * S4000x2.size a + S4000x2.size a := by
  show i ∈ ((View.whole main_v7_1).slice (win0_5.rect t)).set ↔ _
  rw [View.set_slice_whole, Rect.mem_set_unit]
  exact Iff.rfl

/-- Every row is in some point's block: row r is in block r / 4000. -/
theorem logits_cover (i : S40000x2.Idx) :
    ∃ t : Fin cfg0.N, (cfg0.win 5).flush t = true ∧ i ∈ ((cfg0.win 5).blk t).view.set := by
  have hi0 : (i 0).val < 40000 := (i 0).isLt
  have hi1 : (i 1).val < 2 := (i 1).isLt
  let t : Fin cfg0.N := ⟨(i 0).val / 4000, show (i 0).val / 4000 < 10 by omega⟩
  obtain ⟨-, -, -, -, -, -, -, -, -, -, e0, e1⟩ := idx_facts t
  have ht : t.val = (i 0).val / 4000 := rfl
  refine ⟨t, flush0_5 t, ?_⟩
  rw [logits_mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 2 ≤ (i 1).val ∧ (i 1).val < win0_5.index t (1 : Fin 2) * 2 + 2; omega

/-- After the first region the two-column array holds the hidden rows against the first two columns of the padded matrix. -/
theorem logits_arr (c : Dev nD) :
    (dat0 (F := Ideal) V c).arrAt 5 cfg0.N = proj (dense (V c main_v0) (V c main_arg2) (V c main_v1)) (V c main_v6) :=
  (dat0 (F := Ideal) V c).arrAt_eq_of_cover 5 (proj (dense (V c main_v0) (V c main_arg2) (V c main_v1)) (V c main_v6))
    (fun t _ => logits_flushed V c t) logits_cover

end Cert.Bridge.Region0

end
-- ==== Proof.Region1.lean ====
/-
  The combining dense layer as a whole array.

  Point t of the ten-point grid handles rows 4000 t … 4000 t + 3999 of the hidden rows and of the aggregated rows,
  with both weight matrices and the bias row resident, and stores relu(h · W₁ + s · W₂ + b) of its rows. The blocks
  tile the output, so after the region the output array is that function of the whole arrays.
-/
import proofs.«400300_j60876866453744_3_alg».proof.Proof.Gen.KernelIdeal.Frame
import proofs.«400300_j60876866453744_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.Bridge.Region1

open Idealize.ShloMosaic Idealize.ShloMosaic.TcCoe Idealize.SL.Sem Idealize.ShloMosaic.ValueIdx
open Cert.KernelIdeal Cert.KernelIdeal.Gen Cert.Bridge

variable (V : (c : Dev nD) → (b : Ref sig .tc) → Buf (Elt Ideal) ((c : Thread nD τ).loc b))

/-! ## The payload read at one entry

Both products of the body use one set of dimension numbers: axis 1 of the left operand is contracted against
axis 0 of the right one. So entry (p, q) of a product is row p of the left operand against column q of the right. -/

/-- The left operand is read in the output's row … -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … at the contraction index; -/
theorem lhs_contr (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand is read at the contraction index … -/
theorem rhs_contr (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … in the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A product into the zero accumulator, at entry (p, q): the sum over k of A (p, k) · B (k, q). -/
theorem product_at {φ₁ φ₂ : FTy} (A : FVec Ideal S4000x128 φ₁) (B : FVec Ideal S128x128 φ₂) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_contr _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The bias row spread over the 4000 rows of a block, at entry (p, q): the bias of column q. -/
theorem bias_at (b : FVec Ideal S1x128 .f32) (p : Fin 4000) (q : Fin 128) :
    broadcastTo S4000x128 b broadcasts_S1x128_S4000x128 (ix2 p q) = b (ix2 0 q) := by
  refine broadcastTo_apply b _ (ix2 p q) (ix2 0 q) fun a => ?_
  match a with
  | ⟨0, _⟩ => rfl
  | ⟨1, _⟩ => rfl

/-- THE PAYLOAD AT ENTRY (p, q) of a block: the two row-by-column sums added, plus the bias of column q, clamped at
    zero. The changes of float format and the casts to the same shape are the identity on extended reals. -/
theorem payload_at (x0 : Vec Ideal S4000x128 .bf16) (x1 : Vec Ideal S4000x128 .f32) (x2 x3 : Vec Ideal S128x128 .f32)
    (x4 : Vec Ideal S1x128 .f32) (p : Fin 4000) (q : Fin 128) :
    k1_pay1 x0 x1 x2 x3 x4 (ix2 p q)
      = max (((∑ k : Fin 128, x0 (ix2 p k) * x2 (ix2 k q)) + (∑ k : Fin 128, x1 (ix2 p k) * x3 (ix2 k q))) + x4 (ix2 0 q)) z0 := by
  unfold k1_pay1
  simp only [shapeCast_self]
  rw [maximumf_apply, addf_apply, addf_apply, product_at, product_at, bias_at]
  rfl

/-! ## From blocks to the array

The grid has 10 points. At point t the two row-blocked inputs and the output sit at block (t, 0): rows
4000·t … 4000·t + 3999, all 128 columns. The two weight matrices and the bias row are resident: block (0, 0),
the whole array. -/

theorem hz : (![0, 0] : Fin 2 → Nat) = fun _ => 0 := funext fun a => by fin_cases a <;> rfl

/-- The printed index maps, decided once over the grid. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of h: entry (p, k) of the block is entry (4000·t + p, k) of the array. -/
theorem h_block (c : Dev nD) (t : Fin cfg1.N) (x : S4000x128.Idx) (i : S40000x128.Idx)
    (h0 : (i 0).val = 4000 * t.val + (x 0).val) (h1 : (i 1).val = (x 1).val) :
    (iblk1 V c 0 t : Vec Ideal S4000x128 .bf16) x = (V c main_v64 : S40000x128.Idx → EReal) i := by
  obtain ⟨e0, e1, -⟩ := idx_facts t
  show V c main_v64 (((cfg1.win 0).blk t).view.emb x) = V c main_v64 i
  refine congrArg (V c main_v64) (funext fun a => Fin.ext ?_)
  match a with
  | ⟨0, _⟩ => show win1_0.index t (0 : Fin 2) * 4000 + 1 * (x 0).val = (i 0).val; rw [e0, h0]; omega
  | ⟨1, _⟩ => show win1_0.index t (1 : Fin 2) * 128 + 1 * (x 1).val = (i 1).val; rw [e1, h1]; omega

/-- Block t of s likewise. -/
theorem s_block (c : Dev nD) (t : Fin cfg1.N) (x : S4000x128.Idx) (i : S40000x128.Idx)
    (h0 : (i 0).val = 4000 * t.val + (x 0).val) (h1 : (i 1).val = (x 1).val) :
    (iblk1 V c 1 t : Vec Ideal S4000x128 .f32) x = (V c main_v65 : S40000x128.Idx → EReal) i := by
  obtain ⟨-, -, e0, e1, -⟩ := idx_facts t
  show V c main_v65 (((cfg1.win 1).blk t).view.emb x) = V c main_v65 i
  refine congrArg (V c main_v65) (funext fun a => Fin.ext ?_)
  match a with
  | ⟨0, _⟩ => show win1_1.index t (0 : Fin 2) * 4000 + 1 * (x 0).val = (i 0).val; rw [e0, h0]; omega
  | ⟨1, _⟩ => show win1_1.index t (1 : Fin 2) * 128 + 1 * (x 1).val = (i 1).val; rw [e1, h1]; omega

/-- The resident W₁ block is the whole matrix. -/
theorem w1_block (c : Dev nD) (t : Fin cfg1.N) (x : S128x128.Idx) :
    (iblk1 V c 2 t : Vec Ideal S128x128 .f32) x = (V c main_v66 : S128x128.Idx → EReal) x := by
  obtain ⟨-, -, -, -, e0, e1, -⟩ := idx_facts t
  show V c main_v66 (((cfg1.win 2).blk t).view.emb x) = V c main_v66 x
  refine congrArg (V c main_v66) (funext fun a => Fin.ext ?_)
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The resident W₂ block is the whole matrix. -/
theorem w2_block (c : Dev nD) (t : Fin cfg1.N) (x : S128x128.Idx) :
    (iblk1 V c 3 t : Vec Ideal S128x128 .f32) x = (V c main_v67 : S128x128.Idx → EReal) x := by
  obtain ⟨-, -, -, -, -, -, e0, e1, -⟩ := idx_facts t
  show V c main_v67 (((cfg1.win 3).blk t).view.emb x) = V c main_v67 x
  refine congrArg (V c main_v67) (funext fun a => Fin.ext ?_)
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- The resident bias block is the whole row. -/
theorem b_block (c : Dev nD) (t : Fin cfg1.N) (x : S1x128.Idx) :
    (iblk1 V c 4 t : Vec Ideal S1x128 .f32) x = (V c main_v68 : S1x128.Idx → EReal) x := by
  obtain ⟨-, -, -, -, -, -, -, -, e0, e1, -⟩ := idx_facts t
  show V c main_v68 (((cfg1.win 4).blk t).view.emb x) = V c main_v68 x
  refine congrArg (V c main_v68) (funext fun a => Fin.ext ?_)
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- One entry of a block of the output, over any five blocks that read the arrays as the output's row and
    column say: entry (p, q) of the payload is entry (r, q) of relu(h · W₁ + s · W₂ + b). -/
theorem entry_of_blocks (h s : S40000x128.Idx → EReal) (W₁ W₂ : S128x128.Idx → EReal) (b : S1x128.Idx → EReal)
    (x0 : Vec Ideal S4000x128 .bf16) (x1 : Vec Ideal S4000x128 .f32) (x2 x3 : Vec Ideal S128x128 .f32)
    (x4 : Vec Ideal S1x128 .f32) (r : Fin 40000) (p : Fin 4000) (q : Fin 128)
    (e0 : ∀ k : Fin 128, x0 (ix2 p k) = h (ix2 r k)) (e1 : ∀ k : Fin 128, x1 (ix2 p k) = s (ix2 r k))
    (e2 : ∀ k : Fin 128, x2 (ix2 k q) = W₁ (ix2 k q)) (e3 : ∀ k : Fin 128, x3 (ix2 k q) = W₂ (ix2 k q))
    (e4 : x4 (ix2 0 q) = b (ix2 0 q)) :
    k1_pay1 x0 x1 x2 x3 x4 (ix2 p q) = combineAt h s W₁ W₂ b r q := by
  have s0 : (∑ k : Fin 128, x0 (ix2 p k) * x2 (ix2 k q)) = ∑ k : Fin 128, h (ix2 r k) * W₁ (ix2 k q) :=
    Finset.sum_congr rfl fun k _ => by rw [e0 k, e2 k]
  have s1 : (∑ k : Fin 128, x1 (ix2 p k) * x3 (ix2 k q)) = ∑ k : Fin 128, s (ix2 r k) * W₂ (ix2 k q) :=
    Finset.sum_congr rfl fun k _ => by rw [e1 k, e3 k]
  rw [payload_at, s0, s1, e4]
  rfl

/-- WHAT POINT t WRITES BACK is block t of relu(h · W₁ + s · W₂ + b) of the arrays as the region finds them. -/
theorem flushed_eq (c : Dev nD) (t : Fin cfg1.N) :
    (dat1 (F := Ideal) V c).flushed 5 t
      = ((cfg1.win 5).blk t).view.read (Elt Ideal)
          (combine (V c main_v64) (V c main_v65) (V c main_v66) (V c main_v67) (V c main_v68)) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  obtain ⟨-, -, -, -, -, -, -, -, -, -, o0, o1⟩ := idx_facts t
  have ht : t.val < 10 := t.isLt
  funext j
  obtain ⟨p, q, rfl⟩ : ∃ (p : Fin 4000) (q : Fin 128), j = ix2 p q := ⟨j 0, j 1, eq_ix2 j⟩
  have hi : ((cfg1.win 5).blk t).view.emb (ix2 p q) = (ix2 (⟨4000 * t.val + p.val, by omega⟩ : Fin 40000) q : S40000x128.Idx) := by
    funext a; apply Fin.ext
    match a with
    | ⟨0, _⟩ => show win1_5.index t (0 : Fin 2) * 4000 + 1 * p.val = 4000 * t.val + p.val; rw [o0]; omega
    | ⟨1, _⟩ => show win1_5.index t (1 : Fin 2) * 128 + 1 * q.val = q.val; rw [o1]; omega
  show k1_pay1 (iblk1 V c 0 t) (iblk1 V c 1 t) (iblk1 V c 2 t) (iblk1 V c 3 t) (iblk1 V c 4 t) (ix2 p q)
    = combine (V c main_v64) (V c main_v65) (V c main_v66) (V c main_v67) (V c main_v68) (((cfg1.win 5).blk t).view.emb (ix2 p q))
  rw [hi]
  exact entry_of_blocks (V c main_v64) (V c main_v65) (V c main_v66) (V c main_v67) (V c main_v68) _ _ _ _ _
    ⟨4000 * t.val + p.val, by omega⟩ p q
    (fun k => h_block V c t (ix2 p k) (ix2 _ k) rfl rfl) (fun k => s_block V c t (ix2 p k) (ix2 _ k) rfl rfl)
    (fun k => w1_block V c t (ix2 k q)) (fun k => w2_block V c t (ix2 k q)) (b_block V c t (ix2 0 q))

/-- An index of the output array is in point t's block iff each coordinate is in the block's range on its axis. -/
theorem mem_blk (t : Fin cfg1.N) (i : S40000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v69).slice (win1_5.rect t)).set ↔ _
  rw [View.set_slice_whole, Rect.mem_set_unit]
  exact Iff.rfl

/-- THE BLOCKS TILE THE ARRAY: row r lies in block r / 4000, and every point writes its block back. -/
theorem covered (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  have hN : (i 0).val / 4000 < cfg1.N := by show (i 0).val / 4000 < 10; omega
  obtain ⟨-, -, -, -, -, -, -, -, -, -, o0, o1⟩ := idx_facts ⟨(i 0).val / 4000, hN⟩
  refine ⟨⟨(i 0).val / 4000, hN⟩, flush1_5 _, ?_⟩
  rw [mem_blk]
  intro a
  match a with
  | ⟨0, _⟩ =>
    show win1_5.index ⟨(i 0).val / 4000, hN⟩ (0 : Fin 2) * 4000 ≤ (i 0).val ∧ (i 0).val < win1_5.index ⟨(i 0).val / 4000, hN⟩ (0 : Fin 2) * 4000 + 4000
    rw [o0]; show (i 0).val / 4000 * 4000 ≤ (i 0).val ∧ (i 0).val < (i 0).val / 4000 * 4000 + 4000; omega
  | ⟨1, _⟩ =>
    show win1_5.index ⟨(i 0).val / 4000, hN⟩ (1 : Fin 2) * 128 ≤ (i 1).val ∧ (i 1).val < win1_5.index ⟨(i 0).val / 4000, hN⟩ (1 : Fin 2) * 128 + 128
    rw [o1]; omega

/-- After the second region the output array holds relu(h · W₁ + s · W₂ + b) of the arrays the region found. -/
theorem combine_arr (c : Dev nD) :
    (dat1 (F := Ideal) V c).arrAt 5 cfg1.N
      = combine (V c main_v64) (V c main_v65) (V c main_v66) (V c main_v67) (V c main_v68) :=
  (dat1 (F := Ideal) V c).arrAt_eq_of_cover 5
    (combine (V c main_v64) (V c main_v65) (V c main_v66) (V c main_v67) (V c main_v68))
    (fun t _ => flushed_eq V c t) covered

end Cert.Bridge.Region1

end
-- ==== Proof.RefStages.lean ====
/-
  The reference's stages between its two dense layers, restated over the functions both programs share.

  The reference wraps the edge columns, gathers the hidden rows at source and target, computes the logits from the
  pair of rows, and from there applies exactly the shared chain: softmax over all batch-edge pairs of tanh of the
  logits, the target rows weighted, the messages summed onto the sources. Everything here is by unfolding the
  stage names; the two programs print the same operations with the same dimension numbers.
-/
import proofs.«400300_j60876866453744_3_alg».proof.Proof.RefRead
import proofs.«400300_j60876866453744_3_alg».proof.Proof.Chain

set_option maxRecDepth 16384

noncomputable section

namespace Cert.Bridge.Ref

open Idealize.ShloMosaic Idealize.ShloMosaic.TcCoe Cert.KernelIdeal Cert.KernelIdeal.Gen Cert.Bridge.Chain

variable {F : FTy → Type} [FloatOps F]

/-- The two programs' row gathers carry the same dimension numbers. -/
theorem gather_dims_eq :
    Cert.ReferenceIdeal.gather_S4x10000x128_S160000x1_S4x160000x128_02_1_n_n_1_1_41128
      = Cert.KernelIdeal.gather_S4x10000x128_S160000x1_S4x160000x128_02_1_n_n_1_1_41128 := rfl

/-- The reference's wrapped source indices are the shared ones. -/
theorem wrapped_src (e : (⟨S160000x2, .i32⟩ : BufTy).Contents (Elt F)) :
    Cert.ReferenceIdeal.ReadP.val_main_v14 (F := F) e = wrapIdx (edgeCol0 e) := rfl

/-- The reference's wrapped target indices are the shared ones. -/
theorem wrapped_tgt (e : (⟨S160000x2, .i32⟩ : BufTy).Contents (Elt F)) :
    Cert.ReferenceIdeal.ReadP.val_main_v21 (F := F) e = wrapIdx (edgeCol1 e) := rfl

/-- The reference's aggregated messages: the shared chain applied to the reference's logits and to its hidden rows
    gathered at the wrapped targets. -/
theorem aggregated_ref (x0 : (⟨S4x10000x128, .f32⟩ : BufTy).Contents (Elt F)) (e : (⟨S160000x2, .i32⟩ : BufTy).Contents (Elt F))
    (x2 : (⟨S128x128, .f32⟩ : BufTy).Contents (Elt F)) (x3 : (⟨S128, .f32⟩ : BufTy).Contents (Elt F))
    (x4 : (⟨S256x1, .f32⟩ : BufTy).Contents (Elt F)) (x5 : (⟨S1, .f32⟩ : BufTy).Contents (Elt F)) :
    Cert.ReferenceIdeal.ReadP.val_main_v47 (F := F) x0 e x2 x3 x4 x5
      = scatterRows (edgeCol0 e)
          (weighted (softmaxAll (Host.tanh (Cert.ReferenceIdeal.ReadP.val_main_v27 (F := F) x0 e x2 x3 x4 x5)))
            (Host.gather gather_S4x10000x128_S160000x1_S4x160000x128_02_1_n_n_1_1_41128
              (Cert.ReferenceIdeal.ReadP.val_main_v4 (F := F) x0 x2 x3) (wrapIdx (edgeCol1 e)))) := rfl

end Cert.Bridge.Ref

end
-- ==== Proof.LibRowGather3.lean ====
/-
  A row gather of a rank-three table on its middle axis, read at an index.

  The table has shape [B, N, K]; the start indices are one signed word per edge, shape [E, 1]; the result has
  shape [B, E, K]. Result entry (b, e, k) is table entry (b, n, k), where n is edge e's word read as a signed
  integer and clamped into [0, N - 1]. The row n depends on the edge and on the words only: neither on b nor on
  k, nor on K. So two such gathers with the same words, from tables of different widths K, read the same rows.
-/
import Idealize.ShloMosaic.PureOps.ShapeOps
import Idealize.ShloMosaic.Lib.ValueIdx

namespace Idealize.ShloMosaic.RowGather3

open Idealize.ShloMosaic Idealize.ShloMosaic.ValueIdx

variable {α : Type} {B N K E w : Nat}

/-- The dimension numbers of `table[:, idx, :]`: offset axes 0 and 2, the middle axis collapsed and indexed,
    one index word per edge, slices of one row. -/
abbrev rowDims (B N K E : Nat)
    (wf : GatherDims.WF ⟨3, ![B, N, K]⟩ ⟨2, ![E, 1]⟩ ⟨3, ![B, E, K]⟩ [0, 2] [1] [] [1] [] 1 ![B, 1, K]) :
    GatherDims ⟨3, ![B, N, K]⟩ ⟨2, ![E, 1]⟩ ⟨3, ![B, E, K]⟩ where
  offsetDims := [0, 2]
  collapsedSliceDims := [1]
  operandBatchingDims := []
  startIndicesBatchingDims := []
  startIndexMap := [1]
  indexVectorDim := 1
  sliceSizes := ![B, 1, K]
  wf := wf

/-- The row edge `e` reads: its word, signed, clamped into the table's rows. -/
def rowOf (N : Nat) (idx : IVec ⟨2, ![E, 1]⟩ w) (e : Fin E) : Nat :=
  min (idx (ix2 e 0)).toInt.toNat (N - 1)

theorem rowOf_lt (hN : 0 < N) (idx : IVec ⟨2, ![E, 1]⟩ w) (e : Fin E) : rowOf N idx e < N := by
  unfold rowOf; omega

theorem ne01 : (0 : ℕ) = 1 → False := by decide
theorem ne21 : (2 : ℕ) = 1 → False := by decide

variable (wf : GatherDims.WF ⟨3, ![B, N, K]⟩ ⟨2, ![E, 1]⟩ ⟨3, ![B, E, K]⟩ [0, 2] [1] [] [1] [] 1 ![B, 1, K])

theorem operandIdx_0 (idx : IVec ⟨2, ![E, 1]⟩ w) (j : (⟨3, ![B, E, K]⟩ : Shape).Idx) :
    ((rowDims B N K E wf).operandIdx j idx 0).val = (j 0).val := by
  show (rowDims B N K E wf).start j idx 0 + (rowDims B N K E wf).batchCoord j 0 + (rowDims B N K E wf).offCoord j 0 = _
  rw [GatherDims.batchCoord_eq_zero _ _ _ List.not_mem_nil]
  unfold GatherDims.start
  rw [dif_neg (show (0 : Fin 3) ∉ (rowDims B N K E wf).startIndexMap from fun h => ne01 (congrArg Fin.val (List.mem_singleton.mp h)))]
  unfold GatherDims.offCoord
  rw [dif_pos ((GatherDims.mem_sKept _ _).mpr ⟨fun h => ne01 (congrArg Fin.val (List.mem_singleton.mp h)), List.not_mem_nil⟩ : (0 : Fin 3) ∈ (rowDims B N K E wf).sKept)]
  simp only [Nat.zero_add]
  rfl

theorem operandIdx_2 (idx : IVec ⟨2, ![E, 1]⟩ w) (j : (⟨3, ![B, E, K]⟩ : Shape).Idx) :
    ((rowDims B N K E wf).operandIdx j idx 2).val = (j 2).val := by
  show (rowDims B N K E wf).start j idx 2 + (rowDims B N K E wf).batchCoord j 2 + (rowDims B N K E wf).offCoord j 2 = _
  rw [GatherDims.batchCoord_eq_zero _ _ _ List.not_mem_nil]
  unfold GatherDims.start
  rw [dif_neg (show (2 : Fin 3) ∉ (rowDims B N K E wf).startIndexMap from fun h => ne21 (congrArg Fin.val (List.mem_singleton.mp h)))]
  unfold GatherDims.offCoord
  rw [dif_pos ((GatherDims.mem_sKept _ _).mpr ⟨fun h => ne21 (congrArg Fin.val (List.mem_singleton.mp h)), List.not_mem_nil⟩ : (2 : Fin 3) ∈ (rowDims B N K E wf).sKept)]
  simp only [Nat.zero_add]
  rfl

theorem operandIdx_1 (idx : IVec ⟨2, ![E, 1]⟩ w) (j : (⟨3, ![B, E, K]⟩ : Shape).Idx) :
    ((rowDims B N K E wf).operandIdx j idx 1).val = rowOf N idx (j 1) := by
  show (rowDims B N K E wf).start j idx 1 + (rowDims B N K E wf).batchCoord j 1 + (rowDims B N K E wf).offCoord j 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (rowDims B N K E wf).startIndexMap from List.mem_singleton.mpr rfl)]
  have hsi : (rowDims B N K E wf).siIdx j ⟨List.idxOf (1 : Fin 3) (rowDims B N K E wf).startIndexMap,
      List.idxOf_lt_length_iff.2 (List.mem_singleton.mpr rfl)⟩ = ix2 (j 1) 0 := by
    funext b; refine Fin.ext ?_
    match b with
    | ⟨0, _⟩ => rfl
    | ⟨1, _⟩ => rfl
  rw [hsi]
  rfl

/-- THE GATHER READ AT (b, e, k): the table at (b, the clamped row of edge e, k). -/
theorem gather_rows_apply (hN : 0 < N) (x : (⟨3, ![B, N, K]⟩ : Shape).Idx → α) (idx : IVec ⟨2, ![E, 1]⟩ w)
    (b : Fin B) (e : Fin E) (k : Fin K) :
    Host.gather (rowDims B N K E wf) x idx (ix3 b e k) = x (ix3 b ⟨rowOf N idx e, rowOf_lt hN idx e⟩ k) := by
  unfold Host.gather
  congr 1
  funext a
  refine Fin.ext ?_
  match a with
  | ⟨0, _⟩ => exact operandIdx_0 wf idx (ix3 b e k)
  | ⟨1, _⟩ => exact operandIdx_1 wf idx (ix3 b e k)
  | ⟨2, _⟩ => exact operandIdx_2 wf idx (ix3 b e k)

end Idealize.ShloMosaic.RowGather3
-- ==== Proof.LayoutA.lean ====
/-
  Regroupings, column cuts and halves read at an index given by its coordinates.

  Flattening [4, 10000, k] to [40000, k] sends (b, n, ·) to row 10000 b + n; a column cut keeps one column; the top
  and bottom halves of a 256-row matrix are its rows 0..127 and 128..255; the padded attention matrix has the two
  halves of the attention vector as its columns 0 and 1.
-/
import proofs.«400300_j60876866453744_3_alg».proof.Proof.Chain
import proofs.«400300_j60876866453744_3_alg».proof.Proof.LibRowGather3
import Idealize.ShloMosaic.Lib.ValueIdx
import Idealize.ShloMosaic.Lib.Pipeline.Value

set_option maxRecDepth 16384

noncomputable section

namespace Cert.Bridge.LayoutA

open Idealize.ShloMosaic Idealize.ShloMosaic.TcCoe Idealize.ShloMosaic.ValueIdx Idealize.ShloMosaic.RowGather3
open Cert.KernelIdeal Cert.KernelIdeal.Gen Cert.Bridge.Chain

variable {α : Type}

/-- Row r = 10000 * b + n of the flattened array is node n of batch element b. -/
abbrev rowOfNode (b : Fin 4) (n : Fin 10000) : Fin 40000 := ⟨b.val * 10000 + n.val, by omega⟩

/-- Flattening [4, 10000, 128] to rows. -/
theorem flat_rows (x : S4x10000x128.Idx → α) (b : Fin 4) (n : Fin 10000) (k : Fin 128) :
    shapeCast S40000x128 x shapeCasts_S4x10000x128_S40000x128 (ix2 (rowOfNode b n) k) = x (ix3 b n k) := by
  refine shapeCast_apply x shapeCasts_S4x10000x128_S40000x128 (ix2 (rowOfNode b n) k) (ix3 b n k) ?_
  rewrite [Shape.rowMajor_val_three, Shape.rowMajor_val_two]
  show (b.val * 10000 + n.val) * 128 + k.val = (b.val * 10000 + n.val) * 128 + k.val
  rfl

/-- Regrouping rows to [4, 10000, 128]. -/
theorem unflat_rows (y : S40000x128.Idx → α) (b : Fin 4) (n : Fin 10000) (k : Fin 128) :
    shapeCast S4x10000x128 y shapeCasts_S40000x128_S4x10000x128 (ix3 b n k) = y (ix2 (rowOfNode b n) k) := by
  refine shapeCast_apply y shapeCasts_S40000x128_S4x10000x128 (ix3 b n k) (ix2 (rowOfNode b n) k) ?_
  rewrite [Shape.rowMajor_val_two, Shape.rowMajor_val_three]
  show (b.val * 10000 + n.val) * 128 + k.val = (b.val * 10000 + n.val) * 128 + k.val
  rfl

/-- Regrouping the two-column rows to [4, 10000, 2]. -/
theorem unflat_cols (y : S40000x2.Idx → α) (b : Fin 4) (n : Fin 10000) (j : Fin 2) :
    shapeCast S4x10000x2 y shapeCasts_S40000x2_S4x10000x2 (ix3 b n j) = y (ix2 (rowOfNode b n) j) := by
  refine shapeCast_apply y shapeCasts_S40000x2_S4x10000x2 (ix3 b n j) (ix2 (rowOfNode b n) j) ?_
  rewrite [Shape.rowMajor_val_two, Shape.rowMajor_val_three]
  show (b.val * 10000 + n.val) * 2 + j.val = (b.val * 10000 + n.val) * 2 + j.val
  rfl

/-- Column 0 of a [4, 10000, 2] array, kept as a last axis of extent one. -/
theorem col0_apply (y : S4x10000x2.Idx → α) (b : Fin 4) (n : Fin 10000) (z : Fin 1) :
    extractStridedSlice S4x10000x1 ![0, 0, 0] y slices_S4x10000x2_S4x10000x1_0_0_0 (ix3 b n z) = y (ix3 b n 0) := by
  refine extractStridedSlice_apply ![0, 0, 0] y slices_S4x10000x2_S4x10000x1_0_0_0 (ix3 b n z) (ix3 b n 0) (fun a => ?_)
  have hz : z.val < 1 := z.isLt
  match a with
  | ⟨0, _⟩ => show b.val = 0 + b.val; omega
  | ⟨1, _⟩ => show n.val = 0 + n.val; omega
  | ⟨2, _⟩ => show 0 = 0 + z.val; omega

/-- Column 1 of a [4, 10000, 2] array, kept as a last axis of extent one. -/
theorem col1_apply (y : S4x10000x2.Idx → α) (b : Fin 4) (n : Fin 10000) (z : Fin 1) :
    extractStridedSlice S4x10000x1 ![0, 0, 1] y slices_S4x10000x2_S4x10000x1_0_0_1 (ix3 b n z) = y (ix3 b n 1) := by
  refine extractStridedSlice_apply ![0, 0, 1] y slices_S4x10000x2_S4x10000x1_0_0_1 (ix3 b n z) (ix3 b n 1) (fun a => ?_)
  have hz : z.val < 1 := z.isLt
  match a with
  | ⟨0, _⟩ => show b.val = 0 + b.val; omega
  | ⟨1, _⟩ => show n.val = 0 + n.val; omega
  | ⟨2, _⟩ => show 1 = 1 + z.val; omega

/-- A vector of 128 entries as one row. -/
theorem row_of_vec (v : S128.Idx → α) (q : Fin 128) :
    shapeCast S1x128 v shapeCasts_S128_S1x128 (ix2 0 q) = v (ix1 q) := by
  refine shapeCast_apply v shapeCasts_S128_S1x128 (ix2 0 q) (ix1 q) ?_
  rewrite [Shape.rowMajor_val_one, Shape.rowMajor_val_two]
  show q.val = 0 * 128 + q.val
  omega

/-- The top half (rows 0..127) of a 256 x 128 matrix. -/
theorem top_half (w : S256x128.Idx → α) (k q : Fin 128) :
    extractStridedSlice S128x128 ![0, 0] w slices_S256x128_S128x128_0_0 (ix2 k q) = w (ix2 ⟨k.val, by omega⟩ q) := by
  refine extractStridedSlice_apply ![0, 0] w slices_S256x128_S128x128_0_0 (ix2 k q) (ix2 ⟨k.val, by omega⟩ q) (fun a => ?_)
  match a with
  | ⟨0, _⟩ => show k.val = 0 + k.val; omega
  | ⟨1, _⟩ => show q.val = 0 + q.val; omega

/-- The bottom half (rows 128..255) of a 256 x 128 matrix. -/
theorem bottom_half (w : S256x128.Idx → α) (k q : Fin 128) :
    extractStridedSlice S128x128 ![128, 0] w slices_S256x128_S128x128_128_0 (ix2 k q) = w (ix2 ⟨128 + k.val, by omega⟩ q) := by
  refine extractStridedSlice_apply ![128, 0] w slices_S256x128_S128x128_128_0 (ix2 k q) (ix2 ⟨128 + k.val, by omega⟩ q) (fun a => ?_)
  match a with
  | ⟨0, _⟩ => show 128 + k.val = 128 + k.val; rfl
  | ⟨1, _⟩ => show q.val = 0 + q.val; omega

variable {F : FTy → Type} [FloatOps F]

/-- Column 0 of the padded matrix is the first half of the attention vector. -/
theorem padCols_col0 (wa : (⟨S256x1, .f32⟩ : BufTy).Contents (Elt F)) (k : Fin 128) :
    padCols wa (ix2 k (⟨0, by omega⟩ : Fin 128)) = wa (ix2 (⟨k.val, by omega⟩ : Fin 256) 0) := by
  unfold padCols
  -- column 0 lies in the two-column piece, and there in its first one-column piece
  refine (concatenate_pair_apply_left (t := S128x128) (s₁ := S128x2) (s₂ := S128x126) 1 _ _
    concatenates_S128x2_S128x126_S128x128_d1 (ix2 k ⟨0, by omega⟩) rfl (ix2 k (0 : Fin 2)) (fun b => by
      match b with
      | ⟨0, _⟩ => rfl
      | ⟨1, _⟩ => rfl)).trans ?_
  refine (concatenate_pair_apply_left (t := S128x2) (s₁ := S128x1) (s₂ := S128x1) 1 _ _
    concatenates_S128x1_S128x1_S128x2_d1 (ix2 k (0 : Fin 2)) rfl (ix2 k (0 : Fin 1)) (fun b => by
      match b with
      | ⟨0, _⟩ => rfl
      | ⟨1, _⟩ => rfl)).trans ?_
  -- that piece is rows 0..127 of the one-column input
  refine extractStridedSlice_apply ![0, 0] wa slices_S256x1_S128x1_0_0 (ix2 k (0 : Fin 1)) (ix2 (⟨k.val, by omega⟩ : Fin 256) 0) (fun a => ?_)
  match a with
  | ⟨0, _⟩ => show k.val = 0 + k.val; omega
  | ⟨1, _⟩ => rfl

/-- Column 1 of the padded matrix is the second half of the attention vector. -/
theorem padCols_col1 (wa : (⟨S256x1, .f32⟩ : BufTy).Contents (Elt F)) (k : Fin 128) :
    padCols wa (ix2 k (⟨1, by omega⟩ : Fin 128)) = wa (ix2 (⟨128 + k.val, by omega⟩ : Fin 256) 0) := by
  unfold padCols
  -- column 1 lies in the two-column piece, and there in its second one-column piece, at that piece's column 0
  refine (concatenate_pair_apply_left (t := S128x128) (s₁ := S128x2) (s₂ := S128x126) 1 _ _
    concatenates_S128x2_S128x126_S128x128_d1 (ix2 k ⟨1, by omega⟩) rfl (ix2 k (1 : Fin 2)) (fun b => by
      match b with
      | ⟨0, _⟩ => rfl
      | ⟨1, _⟩ => rfl)).trans ?_
  refine (concatenate_pair_apply_right (t := S128x2) (s₁ := S128x1) (s₂ := S128x1) 1 _ _
    concatenates_S128x1_S128x1_S128x2_d1 (ix2 k (1 : Fin 2)) rfl rfl (ix2 k (0 : Fin 1)) (fun b hb => by
      match b with
      | ⟨0, _⟩ => rfl
      | ⟨1, _⟩ => exact absurd rfl hb) rfl).trans ?_
  -- that piece is rows 128..255 of the one-column input
  refine extractStridedSlice_apply ![128, 0] wa slices_S256x1_S128x1_128_0 (ix2 k (0 : Fin 1)) (ix2 (⟨128 + k.val, by omega⟩ : Fin 256) 0) (fun a => ?_)
  match a with
  | ⟨0, _⟩ => show 128 + k.val = 128 + k.val; rfl
  | ⟨1, _⟩ => rfl

end Cert.Bridge.LayoutA

end
-- ==== Proof.LayoutB.lean ====
/-
  Row gathers and pairings read at an index given by its coordinates.

  A gather of rows on the node axis reads, for edge e, the row its index word names (signed, clamped into the
  table), whatever the table's width: the kernel's one-column tables and both programs' 128-column tables are read at
  the same rows. A pairing of two 128-wide arrays along the last axis has the first array in entries 0..127 and the
  second in entries 128..255.
-/
import proofs.«400300_j60876866453744_3_alg».proof.Proof.Chain
import proofs.«400300_j60876866453744_3_alg».proof.Proof.LibRowGather3
import proofs.«400300_j60876866453744_3_alg».proof.Proof.Gen.ReferenceIdeal
import Idealize.ShloMosaic.Lib.ValueIdx
import Idealize.ShloMosaic.Lib.Pipeline.Value

set_option maxRecDepth 16384

noncomputable section

namespace Cert.Bridge.LayoutB

open Idealize.ShloMosaic Idealize.ShloMosaic.TcCoe Idealize.ShloMosaic.ValueIdx Idealize.ShloMosaic.RowGather3
open Cert.KernelIdeal Cert.KernelIdeal.Gen Cert.Bridge.Chain

variable {α : Type}

/-- The row an edge reads from a table of 10000 rows, given the start-index array. -/
abbrev edgeRow (idx : S160000x1.Idx → BitVec 32) (e : Fin 160000) : Fin 10000 :=
  ⟨rowOf 10000 idx e, rowOf_lt (by decide) idx e⟩

/-- The kernel's gather of a one-column table: entry (b, e, ·) is the table at (b, the edge's row, ·). -/
theorem gather_col_apply (x : S4x10000x1.Idx → α) (idx : S160000x1.Idx → BitVec 32) (b : Fin 4) (e : Fin 160000) (z : Fin 1) :
    Host.gather gather_S4x10000x1_S160000x1_S4x160000x1_02_1_n_n_1_1_411 x idx (ix3 b e z) = x (ix3 b (edgeRow idx e) z) := by
  exact gather_rows_apply (B := 4) (N := 10000) (K := 1) (E := 160000) gather_S4x10000x1_S160000x1_S4x160000x1_02_1_n_n_1_1_411.wf (by decide) x idx b e z

/-- The kernel's gather of the hidden rows. -/
theorem gather_rows_apply_k (x : S4x10000x128.Idx → α) (idx : S160000x1.Idx → BitVec 32) (b : Fin 4) (e : Fin 160000) (k : Fin 128) :
    Host.gather Cert.KernelIdeal.gather_S4x10000x128_S160000x1_S4x160000x128_02_1_n_n_1_1_41128 x idx (ix3 b e k) = x (ix3 b (edgeRow idx e) k) := by
  exact gather_rows_apply (B := 4) (N := 10000) (K := 128) (E := 160000) Cert.KernelIdeal.gather_S4x10000x128_S160000x1_S4x160000x128_02_1_n_n_1_1_41128.wf (by decide) x idx b e k

/-- The reference's gather of the hidden rows: the same rows. -/
theorem gather_rows_apply_r (x : S4x10000x128.Idx → α) (idx : S160000x1.Idx → BitVec 32) (b : Fin 4) (e : Fin 160000) (k : Fin 128) :
    Host.gather Cert.ReferenceIdeal.gather_S4x10000x128_S160000x1_S4x160000x128_02_1_n_n_1_1_41128 x idx (ix3 b e k) = x (ix3 b (edgeRow idx e) k) := by
  exact gather_rows_apply (B := 4) (N := 10000) (K := 128) (E := 160000) Cert.ReferenceIdeal.gather_S4x10000x128_S160000x1_S4x160000x128_02_1_n_n_1_1_41128.wf (by decide) x idx b e k

/-- The reference's edge features (source row beside target row): the first 128 entries are the source row's … -/
theorem edge_pair_left (h : Shape.Concatenates [Cert.ReferenceIdeal.S4x160000x128, Cert.ReferenceIdeal.S4x160000x128] Cert.ReferenceIdeal.S4x160000x256 2) (x₁ x₂ : S4x160000x128.Idx → α) (b : Fin 4) (e : Fin 160000) (k : Fin 128) :
    concatenate Cert.ReferenceIdeal.S4x160000x256 2 [⟨Cert.ReferenceIdeal.S4x160000x128, x₁⟩, ⟨Cert.ReferenceIdeal.S4x160000x128, x₂⟩]
      h (ix3 b e (⟨k.val, by omega⟩ : Fin 256)) = x₁ (ix3 b e k) := by
  exact concatenate_pair_apply_left (t := Cert.ReferenceIdeal.S4x160000x256) (2 : Fin 3) x₁ x₂ h (ix3 b e (⟨k.val, by omega⟩ : Fin 256)) rfl (ix3 b e k)
    (fun a => match a with | ⟨0, _⟩ => rfl | ⟨1, _⟩ => rfl | ⟨2, _⟩ => rfl)

/-- … and the last 128 the target row's. -/
theorem edge_pair_right (h : Shape.Concatenates [Cert.ReferenceIdeal.S4x160000x128, Cert.ReferenceIdeal.S4x160000x128] Cert.ReferenceIdeal.S4x160000x256 2) (x₁ x₂ : S4x160000x128.Idx → α) (b : Fin 4) (e : Fin 160000) (k : Fin 128) :
    concatenate Cert.ReferenceIdeal.S4x160000x256 2 [⟨Cert.ReferenceIdeal.S4x160000x128, x₁⟩, ⟨Cert.ReferenceIdeal.S4x160000x128, x₂⟩]
      h (ix3 b e (⟨128 + k.val, by omega⟩ : Fin 256)) = x₂ (ix3 b e k) := by
  refine concatenate_pair_apply_right (t := Cert.ReferenceIdeal.S4x160000x256) (2 : Fin 3) x₁ x₂ h (ix3 b e (⟨128 + k.val, by omega⟩ : Fin 256)) rfl rfl (ix3 b e k)
    (fun a ha => ?_) ?_
  · match a, ha with
    | ⟨0, _⟩, _ => rfl
    | ⟨1, _⟩, _ => rfl
    | ⟨2, _⟩, ha => exact absurd (Fin.ext rfl) ha
  · show k.val + 128 = 128 + k.val
    omega

/-- The reference's node features (hidden row beside aggregated row): the first 128 entries … -/
theorem node_pair_left (h : Shape.Concatenates [Cert.ReferenceIdeal.S4x10000x128, Cert.ReferenceIdeal.S4x10000x128] Cert.ReferenceIdeal.S4x10000x256 2) (x₁ x₂ : S4x10000x128.Idx → α) (b : Fin 4) (n : Fin 10000) (k : Fin 128) :
    concatenate Cert.ReferenceIdeal.S4x10000x256 2 [⟨Cert.ReferenceIdeal.S4x10000x128, x₁⟩, ⟨Cert.ReferenceIdeal.S4x10000x128, x₂⟩]
      h (ix3 b n (⟨k.val, by omega⟩ : Fin 256)) = x₁ (ix3 b n k) := by
  exact concatenate_pair_apply_left (t := Cert.ReferenceIdeal.S4x10000x256) (2 : Fin 3) x₁ x₂ h (ix3 b n (⟨k.val, by omega⟩ : Fin 256)) rfl (ix3 b n k)
    (fun a => match a with | ⟨0, _⟩ => rfl | ⟨1, _⟩ => rfl | ⟨2, _⟩ => rfl)

/-- … and the last 128. -/
theorem node_pair_right (h : Shape.Concatenates [Cert.ReferenceIdeal.S4x10000x128, Cert.ReferenceIdeal.S4x10000x128] Cert.ReferenceIdeal.S4x10000x256 2) (x₁ x₂ : S4x10000x128.Idx → α) (b : Fin 4) (n : Fin 10000) (k : Fin 128) :
    concatenate Cert.ReferenceIdeal.S4x10000x256 2 [⟨Cert.ReferenceIdeal.S4x10000x128, x₁⟩, ⟨Cert.ReferenceIdeal.S4x10000x128, x₂⟩]
      h (ix3 b n (⟨128 + k.val, by omega⟩ : Fin 256)) = x₂ (ix3 b n k) := by
  refine concatenate_pair_apply_right (t := Cert.ReferenceIdeal.S4x10000x256) (2 : Fin 3) x₁ x₂ h (ix3 b n (⟨128 + k.val, by omega⟩ : Fin 256)) rfl rfl (ix3 b n k)
    (fun a ha => ?_) ?_
  · match a, ha with
    | ⟨0, _⟩, _ => rfl
    | ⟨1, _⟩, _ => rfl
    | ⟨2, _⟩, ha => exact absurd (Fin.ext rfl) ha
  · show k.val + 128 = 128 + k.val
    omega

end Cert.Bridge.LayoutB

end
-- ==== Proof.LibSumHalves.lean ====
/-
  A sum over 256 terms in a commutative monoid is the sum over the first 128 plus the sum over the last 128.
  No order, grouping or finiteness is involved: only that addition is associative and commutative.
-/
import Mathlib.Algebra.BigOperators.Fin

namespace Cert.Bridge

/-- ∑_{k<256} f k = ∑_{k<128} f k + ∑_{k<128} f (128 + k). -/
theorem sum_halves {M : Type} [AddCommMonoid M] (f : Fin 256 → M) :
    ∑ k : Fin 256, f k = (∑ k : Fin 128, f ⟨k.val, by omega⟩) + ∑ k : Fin 128, f ⟨128 + k.val, by omega⟩ := by
  have h := Fin.sum_univ_add (a := 128) (b := 128) (fun i : Fin (128 + 128) => f i)
  exact h

end Cert.Bridge
-- ==== Proof.Bridge.lean ====
/-
  The two programs compute one function.

  Hidden rows: both programs form relu(x · W_t + b_t); the kernel on the flattened rows, the reference per batch
  element. Logits: the reference contracts the pair (source row, target row), 256 entries, against the attention
  vector; the kernel contracts every node's row against the two halves of that vector first and gathers the two
  numbers afterwards. A gather only selects rows, so it commutes with a row-wise contraction, and a 256-term sum is
  the sum of its halves. From the logits on, both programs apply the same chain to the same arrays. Combining
  layer: the reference contracts (hidden row, aggregated row), 256 entries, against W_c; the kernel adds the two
  128-term halves. No step uses more than associativity and commutativity of addition, so nothing here asks the
  inputs to be finite.
-/
import proofs.«400300_j60876866453744_3_alg».proof.Proof.Spec
import proofs.«400300_j60876866453744_3_alg».proof.Proof.Chain
import proofs.«400300_j60876866453744_3_alg».proof.Proof.RefStages
import proofs.«400300_j60876866453744_3_alg».proof.Proof.LayoutA
import proofs.«400300_j60876866453744_3_alg».proof.Proof.LayoutB
import proofs.«400300_j60876866453744_3_alg».proof.Proof.LibSumHalves
import Idealize.ShloMosaic.PureOps.Ideal.Laws

set_option maxRecDepth 16384

noncomputable section

namespace Cert.Bridge.Final

open Idealize.ShloMosaic Idealize.ShloMosaic.TcCoe Idealize.ShloMosaic.ValueIdx Idealize.ShloMosaic.RowGather3
open Cert.KernelIdeal Cert.KernelIdeal.Gen Cert.Bridge Cert.Bridge.Chain Cert.Bridge.LayoutA Cert.Bridge.LayoutB

open Cert.ReferenceIdeal.ReadP

variable (a0 : S4x10000x128.Idx → EReal) (a1 : S160000x2.Idx → BitVec 32) (a2 : S128x128.Idx → EReal)
  (a3 : S128.Idx → EReal) (a4 : S256x1.Idx → EReal) (a5 : S1.Idx → EReal) (a6 : S256x128.Idx → EReal)
  (a7 : S128.Idx → EReal)

/-- The hidden rows as the kernel's first layer leaves them, from the arguments. -/
abbrev hiddenK : S40000x128.Idx → EReal :=
  dense (shapeCast S40000x128 a0 shapeCasts_S4x10000x128_S40000x128) a2 (shapeCast S1x128 a3 shapeCasts_S128_S1x128)

/-- The two per-node projections as the kernel's first layer leaves them. -/
abbrev acatK : S40000x2.Idx → EReal := proj (hiddenK a0 a2 a3) (padCols (F := Ideal) a4)

/-! ## The hidden rows -/

/-- THE HIDDEN ROWS AGREE: row 10000 b + n of the kernel's is node n of batch element b of the reference's. -/
theorem hidden_at (b : Fin 4) (n : Fin 10000) (k : Fin 128) :
    hiddenK a0 a2 a3 (ix2 (rowOfNode b n) k) = val_main_v4 (F := Ideal) a0 a2 a3 (ix3 b n k) := by
  show denseAt _ a2 _ (rowOfNode b n) k = _
  unfold denseAt
  rw [val_main_v4_apply, val_main_v3_apply, val_main_v0_apply, val_main_v2_apply, val_main_v1_apply,
    val_main_call0_v0_apply, val_main_call0_cst_apply]
  simp only [Ideal.maximumf_def, Ideal.addf_def, Ideal.ofBits_def]
  congr 2
  · refine Finset.sum_congr rfl fun j _ => ?_
    have el : lidx_main_v0 (ix3 b n k) j = ix3 b n j := by
      funext a; match a with | ⟨0, _⟩ => rfl | ⟨1, _⟩ => rfl | ⟨2, _⟩ => rfl
    have er : ridx_main_v0 (ix3 b n k) j = ix2 j k := by
      funext a; match a with | ⟨0, _⟩ => rfl | ⟨1, _⟩ => rfl
    rw [flat_rows, el, er]
  · rw [row_of_vec]
    congr 1
    funext a; match a with | ⟨0, _⟩ => rfl

/-- The same as arrays: the kernel's hidden rows regrouped per batch element are the reference's. -/
theorem hidden_eq :
    shapeCast S4x10000x128 (hiddenK a0 a2 a3) shapeCasts_S40000x128_S4x10000x128 = val_main_v4 (F := Ideal) a0 a2 a3 := by
  funext i
  obtain ⟨b, n, k, rfl⟩ : ∃ (b : Fin 4) (n : Fin 10000) (k : Fin 128), i = ix3 b n k := ⟨i 0, i 1, i 2, eq_ix3 i⟩
  rw [unflat_rows]
  exact hidden_at a0 a2 a3 b n k

/-! ## The logits -/

/-- An entry of the kernel's two-column array. -/
theorem acat_at (r : Fin 40000) (j : Fin 2) :
    acatK a0 a2 a3 a4 (ix2 r j) = projAt (hiddenK a0 a2 a3) (padCols (F := Ideal) a4) r j := rfl

theorem projAt_zero (H : S40000x128.Idx → EReal) (A : S128x128.Idx → EReal) (r : Fin 40000) :
    projAt H A r 0 = ∑ k : Fin 128, H (ix2 r k) * A (ix2 k (⟨0, by omega⟩ : Fin 128)) := rfl

theorem projAt_one (H : S40000x128.Idx → EReal) (A : S128x128.Idx → EReal) (r : Fin 40000) :
    projAt H A r 1 = ∑ k : Fin 128, H (ix2 r k) * A (ix2 k (⟨1, by omega⟩ : Fin 128)) := rfl

/-- THE LOGITS AGREE: projecting every node's row first and gathering the two numbers afterwards is gathering the
    two rows first and contracting the pair against the whole attention vector. -/
theorem logits_eq :
    nodeLogits (F := Ideal) (acatK a0 a2 a3 a4) a1 a5 = val_main_v27 (F := Ideal) a0 a1 a2 a3 a4 a5 := by
  funext i
  obtain ⟨b, e, z, rfl⟩ : ∃ (b : Fin 4) (e : Fin 160000) (z : Fin 1), i = ix3 b e z := ⟨i 0, i 1, i 2, eq_ix3 i⟩
  have hz : z = 0 := Subsingleton.elim _ _
  subst hz
  rw [val_main_v27_apply, val_main_v24_apply, sum_halves]
  unfold nodeLogits
  show FloatOps.addf (FloatOps.addf (Host.gather _ _ _ (ix3 b e 0)) (Host.gather _ _ _ (ix3 b e 0))) _ = _
  rw [gather_col_apply, gather_col_apply, col0_apply, col1_apply, unflat_cols, unflat_cols, acat_at, acat_at,
    projAt_zero, projAt_one]
  simp only [Ideal.addf_def]
  congr 1
  congr 1
  · refine Finset.sum_congr rfl fun k _ => ?_
    have el : lidx_main_v24 (ix3 b e 0) ⟨k.val, by omega⟩ = ix3 b e (⟨k.val, by omega⟩ : Fin 256) := by
      funext a; match a with | ⟨0, _⟩ => rfl | ⟨1, _⟩ => rfl | ⟨2, _⟩ => rfl
    have er : ridx_main_v24 (ix3 b e 0) ⟨k.val, by omega⟩ = ix2 (⟨k.val, by omega⟩ : Fin 256) 0 := by
      funext a; match a with | ⟨0, _⟩ => rfl | ⟨1, _⟩ => rfl
    rw [el, er, padCols_col0, hidden_at]
    unfold val_main_v23
    rw [edge_pair_left]
    unfold val_main_v15
    rw [gather_rows_apply_r, Ref.wrapped_src]
  · refine Finset.sum_congr rfl fun k _ => ?_
    have el : lidx_main_v24 (ix3 b e 0) ⟨128 + k.val, by omega⟩ = ix3 b e (⟨128 + k.val, by omega⟩ : Fin 256) := by
      funext a; match a with | ⟨0, _⟩ => rfl | ⟨1, _⟩ => rfl | ⟨2, _⟩ => rfl
    have er : ridx_main_v24 (ix3 b e 0) ⟨128 + k.val, by omega⟩ = ix2 (⟨128 + k.val, by omega⟩ : Fin 256) 0 := by
      funext a; match a with | ⟨0, _⟩ => rfl | ⟨1, _⟩ => rfl
    rw [el, er, padCols_col1, hidden_at]
    unfold val_main_v23
    rw [edge_pair_right]
    unfold val_main_v22
    rw [gather_rows_apply_r, Ref.wrapped_tgt]

/-! ## The aggregated messages -/

/-- Rounding exact values through the narrower float format and back changes nothing. -/
theorem round_trip (x : FVec Ideal S4x160000x128 .f32) :
    extf .f32 (truncf .bf16 x bitsLt_bf16_f32) bitsLt_bf16_f32 = x := rfl

/-- Widening exact values changes nothing. -/
theorem widen (x : FVec Ideal S4x160000x128 .bf16) :
    (extf .f32 x bitsLt_bf16_f32 : FVec Ideal S4x160000x128 .f32) = x := rfl

/-- On exact values the kernel's aggregated messages are the shared chain with no format change in it. -/
theorem aggregated_exact (h : (⟨S40000x128, .bf16⟩ : BufTy).Contents (Elt Ideal))
    (acat : (⟨S40000x2, .f32⟩ : BufTy).Contents (Elt Ideal)) (e : (⟨S160000x2, .i32⟩ : BufTy).Contents (Elt Ideal))
    (ba : (⟨S1, .f32⟩ : BufTy).Contents (Elt Ideal)) :
    aggregated (F := Ideal) h acat e ba
      = scatterRows (edgeCol0 e)
          (weighted (softmaxAll (Host.tanh (nodeLogits acat e ba)))
            (Host.gather gather_S4x10000x128_S160000x1_S4x160000x128_02_1_n_n_1_1_41128
              (shapeCast _ h shapeCasts_S40000x128_S4x10000x128) (wrapIdx (edgeCol1 e)))) := by
  unfold aggregated
  rw [round_trip, widen]

/-- The hidden rows regrouped, typed as the kernel's program types them (the narrower format: the same exact values). -/
theorem hidden_eq_narrow :
    shapeCast _ (hiddenK a0 a2 a3 : (⟨S40000x128, .bf16⟩ : BufTy).Contents (Elt Ideal)) shapeCasts_S40000x128_S4x10000x128
      = val_main_v4 (F := Ideal) a0 a2 a3 :=
  hidden_eq a0 a2 a3

/-- THE AGGREGATED MESSAGES AGREE: the shared chain, applied to equal logits and equal hidden rows. -/
theorem aggregated_eq :
    aggregated (F := Ideal) (hiddenK a0 a2 a3) (acatK a0 a2 a3 a4) a1 a5 = val_main_v47 (F := Ideal) a0 a1 a2 a3 a4 a5 := by
  rw [aggregated_exact, Ref.aggregated_ref, logits_eq, hidden_eq_narrow]

/-! ## The combining layer -/

/-- THE RESULTS AGREE, index by index. -/
theorem result_eq :
    shapeCast S4x10000x128
        (combine
          (shapeCast S40000x128 (shapeCast S4x10000x128 (hiddenK a0 a2 a3) shapeCasts_S40000x128_S4x10000x128) shapeCasts_S4x10000x128_S40000x128)
          (shapeCast S40000x128 (aggregated (F := Ideal) (hiddenK a0 a2 a3) (acatK a0 a2 a3 a4) a1 a5) shapeCasts_S4x10000x128_S40000x128)
          (extractStridedSlice S128x128 ![0, 0] a6 slices_S256x128_S128x128_0_0)
          (extractStridedSlice S128x128 ![128, 0] a6 slices_S256x128_S128x128_128_0)
          (shapeCast S1x128 a7 shapeCasts_S128_S1x128))
        shapeCasts_S40000x128_S4x10000x128
      = val_main_v53 (F := Ideal) a0 a1 a2 a3 a4 a5 a6 a7 := by
  funext i
  obtain ⟨b, n, q, rfl⟩ : ∃ (b : Fin 4) (n : Fin 10000) (q : Fin 128), i = ix3 b n q := ⟨i 0, i 1, i 2, eq_ix3 i⟩
  rw [unflat_rows, shapeCast_shapeCast, aggregated_eq]
  show combineAt _ _ _ _ _ (rowOfNode b n) q = _
  unfold combineAt
  rw [val_main_v53_apply, val_main_v52_apply, val_main_v49_apply, val_main_v51_apply, val_main_v50_apply,
    val_main_call1_v0_apply, val_main_call1_cst_apply, sum_halves]
  simp only [Ideal.maximumf_def, Ideal.addf_def, Ideal.ofBits_def]
  refine congrArg₂ max (congrArg₂ (· + ·) (congrArg₂ (· + ·) ?_ ?_) ?_) rfl
  · refine Finset.sum_congr rfl fun k _ => ?_
    have el : lidx_main_v49 (ix3 b n q) ⟨k.val, by omega⟩ = ix3 b n (⟨k.val, by omega⟩ : Fin 256) := by
      funext a; match a with | ⟨0, _⟩ => rfl | ⟨1, _⟩ => rfl | ⟨2, _⟩ => rfl
    have er : ridx_main_v49 (ix3 b n q) ⟨k.val, by omega⟩ = ix2 (⟨k.val, by omega⟩ : Fin 256) q := by
      funext a; match a with | ⟨0, _⟩ => rfl | ⟨1, _⟩ => rfl
    rw [el, er, top_half, hidden_at]
    unfold val_main_v48
    rw [node_pair_left]
  · refine Finset.sum_congr rfl fun k _ => ?_
    have el : lidx_main_v49 (ix3 b n q) ⟨128 + k.val, by omega⟩ = ix3 b n (⟨128 + k.val, by omega⟩ : Fin 256) := by
      funext a; match a with | ⟨0, _⟩ => rfl | ⟨1, _⟩ => rfl | ⟨2, _⟩ => rfl
    have er : ridx_main_v49 (ix3 b n q) ⟨128 + k.val, by omega⟩ = ix2 (⟨128 + k.val, by omega⟩ : Fin 256) q := by
      funext a; match a with | ⟨0, _⟩ => rfl | ⟨1, _⟩ => rfl
    rw [el, er, bottom_half, flat_rows]
    unfold val_main_v48
    rw [node_pair_right]
  · rw [row_of_vec]
    congr 1
    funext a; match a with | ⟨0, _⟩ => rfl

end Cert.Bridge.Final

end
-- ==== Proof.Assemble.lean ====
/-
  The kernel's result, read back to the arguments.

  The result buffer after the run is the last host stretch's regrouping of the second layer's output array; that
  array is the combining layer of what the middle stretch handed it; the middle stretch computed those from the
  first layer's two output arrays and the arguments; the first layer's arrays are the dense layer and its two-column
  projection of what the first stretch handed it. Substituting one into the other gives one function of the eight
  arguments, which the index-by-index comparison shows to be the reference's.
-/
import proofs.«400300_j60876866453744_3_alg».proof.Proof.KernelRun
import proofs.«400300_j60876866453744_3_alg».proof.Proof.HostStretches
import proofs.«400300_j60876866453744_3_alg».proof.Proof.Region0
import proofs.«400300_j60876866453744_3_alg».proof.Proof.Region1
import proofs.«400300_j60876866453744_3_alg».proof.Proof.Bridge

set_option maxRecDepth 16384

noncomputable section

namespace Cert.Bridge.Assemble

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The kernel's result is the reference's function of the same arguments. -/
theorem kernel_value (c : Dev nD) :
    W5 m ρ c (Proc.devRef .tc main_v70)
      = Cert.ReferenceIdeal.ReadP.val_main_v53 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [Host.result, Host.exit_out, Region1.combine_arr (V3 m ρ) c, Host.mid_hidden, Host.mid_aggregated,
    Host.mid_weights_top, Host.mid_weights_bottom, Host.mid_bias, Host.exit_hidden, Host.exit_logits,
    Host.exit_edges, Host.exit_attn_bias, Host.exit_comb_weights, Host.exit_comb_bias,
    Region0.hidden_arr (V1 m ρ) c, Region0.logits_arr (V1 m ρ) c, Host.entry_rows, Host.entry_weights,
    Host.entry_bias, Host.entry_pad]
  exact Final.result_eq _ _ _ _ _ _ _ _

end Cert.Bridge.Assemble

end
-- ==== Proof.lean ====
/-
  The certificate of a graph-attention block: a Pallas kernel pair (a dense layer fused with the per-node attention
  projections; a combining dense layer) around a host gather / softmax / scatter-add, against its plain reference.

  Frames. The two kernel programs' frames are the generated ones. The reference has no kernel: its frame is its run
  with the result dropped.
  Idealization. The ideal pass rewrote nothing in this kernel, so there is nothing to preserve.
  Value. On exact values a change of float format is the identity, so the kernel's program and the reference
  differ in two places only. The reference gathers the source and target rows of every edge and contracts the pair
  against the attention vector; the kernel contracts every node's row against the two halves of that vector and
  gathers the two numbers: a gather selects rows, so the two agree, the 256-term sum split into its halves. And the
  reference contracts (hidden row, aggregated row) against the combining weights in one 256-term sum where the
  kernel adds two 128-term sums. Between these, both programs apply the same softmax over all edges, the same
  weighting of the gathered target rows and the same sum onto the source nodes, to equal arrays.
  Only associativity and commutativity of addition are used: the finiteness of the inputs is never opened.
-/
import proofs.«400300_j60876866453744_3_alg».proof.Defs
import proofs.«400300_j60876866453744_3_alg».proof.Proof.Gen.Kernel
import proofs.«400300_j60876866453744_3_alg».proof.Proof.Gen.Kernel.Skeleton
import proofs.«400300_j60876866453744_3_alg».proof.Proof.Gen.Kernel.Launch
import proofs.«400300_j60876866453744_3_alg».proof.Proof.Gen.Kernel.Points
import proofs.«400300_j60876866453744_3_alg».proof.Proof.Gen.Kernel.Frame
import proofs.«400300_j60876866453744_3_alg».proof.Proof.Gen.KernelIdeal
import proofs.«400300_j60876866453744_3_alg».proof.Proof.Gen.KernelIdeal.Skeleton
import proofs.«400300_j60876866453744_3_alg».proof.Proof.Gen.KernelIdeal.Launch
import proofs.«400300_j60876866453744_3_alg».proof.Proof.Gen.KernelIdeal.Points
import proofs.«400300_j60876866453744_3_alg».proof.Proof.Gen.KernelIdeal.Frame
import proofs.«400300_j60876866453744_3_alg».proof.Proof.Gen.ReferenceIdeal
import proofs.«400300_j60876866453744_3_alg».proof.Proof.Gen.Pre_finite_inputs
import proofs.«400300_j60876866453744_3_alg».proof.Proof.RefRun
import proofs.«400300_j60876866453744_3_alg».proof.Proof.RefRead
import proofs.«400300_j60876866453744_3_alg».proof.Proof.KernelRun
import proofs.«400300_j60876866453744_3_alg».proof.Proof.Assemble
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs, from memories agreeing on the arguments, end with the kernel's result array. -/
theorem algebraic : Cert.algebraic_KernelIdeal_ReferenceIdeal := by
  intro m ρ m' ρ' _ hagree
  refine ⟨fun c => Cert.KernelIdeal.Gen.W5 m ρ c (Proc.devRef .tc Cert.KernelIdeal.main_v70),
    Cert.KernelIdeal.Gen.run_out m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.ReadP.val_main_v53_eq, e0, e1, e2, e3, e4, e5, e6, e7]
  exact (Cert.Bridge.Assemble.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
